-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S1x128 : Shape := ⟨2, ![1, 128]⟩
abbrev S128 : Shape := ⟨1, ![128]⟩
abbrev S128x128 : Shape := ⟨2, ![128, 128]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : IVec S256x512 32) (main_arg1 : IVec S256x512 32) (main_arg2 : FVec F S1x128 .f32) (main_arg3 : FVec F S128 .f32) (main_arg4 : FVec F S128x128 .f32) (main_arg5 : FVec F S128 .f32) : IVec S_ 1 :=
  let main_v0 : FVec F S1x128 .f32 := Host.absf main_arg2
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S256x512 : Shape := ⟨2, ![256, 512]⟩
abbrev S1x128 : Shape := ⟨2, ![1, 128]⟩
abbrev S128 : Shape := ⟨1, ![128]⟩
abbrev S128x128 : Shape := ⟨2, ![128, 128]⟩
abbrev S_ : Shape := ⟨0, ![]⟩
abbrev S512x128 : Shape := ⟨2, ![512, 128]⟩
abbrev S256x512x128 : Shape := ⟨3, ![256, 512, 128]⟩
abbrev S32x512 : Shape := ⟨2, ![32, 512]⟩
abbrev S32x128x128 : Shape := ⟨3, ![32, 128, 128]⟩
abbrev S32x128 : Shape := ⟨2, ![32, 128]⟩
abbrev S32x128x1 : Shape := ⟨3, ![32, 128, 1]⟩
abbrev S32x1x512 : Shape := ⟨3, ![32, 1, 512]⟩
abbrev S32x128x512 : Shape := ⟨3, ![32, 128, 512]⟩
abbrev S4096x512 : Shape := ⟨2, ![4096, 512]⟩
abbrev S4096x128 : Shape := ⟨2, ![4096, 128]⟩
abbrev S4096x1 : Shape := ⟨2, ![4096, 1]⟩
abbrev S4096 : Shape := ⟨1, ![4096]⟩
abbrev S1x1x128 : Shape := ⟨3, ![1, 1, 128]⟩

abbrev nBuf : Space → Nat
  | .hbm => 11
  | .vmem => 13
  | .smem => 0
  | _ => 0

abbrev bufTy : (tb : Table) → Fin (tcTables nBuf tb) → BufTy
  | .hbm, ⟨0, _⟩ => ⟨S256x512, .i32⟩
  | .hbm, ⟨1, _⟩ => ⟨S256x512, .i32⟩
  | .hbm, ⟨2, _⟩ => ⟨S1x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .bf16⟩
  | .hbm, ⟨7, _⟩ => ⟨S512x128, .bf16⟩
  | .hbm, ⟨8, _⟩ => ⟨S128x128, .bf16⟩
  | .hbm, ⟨9, _⟩ => ⟨S256x512x128, .f32⟩
  | .hbm, ⟨10, _⟩ => ⟨S256x512x128, .f32⟩
  | .local _ .vmem, ⟨0, _⟩ => ⟨S32x512, .i32⟩
  | .local _ .vmem, ⟨1, _⟩ => ⟨S32x512, .i32⟩
  | .local _ .vmem, ⟨2, _⟩ => ⟨S32x512, .i32⟩
  | .local _ .vmem, ⟨3, _⟩ => ⟨S32x512, .i32⟩
  | .local _ .vmem, ⟨4, _⟩ => ⟨S512x128, .bf16⟩
  | .local _ .vmem, ⟨5, _⟩ => ⟨S1x128, .f32⟩
  | .local _ .vmem, ⟨6, _⟩ => ⟨S128, .f32⟩
  | .local _ .vmem, ⟨7, _⟩ => ⟨S128x128, .bf16⟩
  | .local _ .vmem, ⟨8, _⟩ => ⟨S128, .f32⟩
  | .local _ .vmem, ⟨9, _⟩ => ⟨S32x128x128, .f32⟩
  | .local _ .vmem, ⟨10, _⟩ => ⟨S32x128x128, .f32⟩
  | .local _ .vmem, ⟨11, _⟩ => ⟨S32x128x128, .f32⟩
  | .local _ .vmem, ⟨12, _⟩ => ⟨S32x128x128, .f32⟩
  | _, _ => ⟨S256x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 2 → Nat :=
  let c0_3 : Index := 0#32
  let arg1 : BitVec 32 := BitVec.ofNat 32 (i 1).val
  let c128_i32 : BitVec 32 := 128#32
  let v0 : BitVec 32 := Scalar.muli arg1 c128_i32
  let v1 : BitVec 32 := v0
  let v4 : Index := Scalar.indexCast v1
  ![0, v4.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S32x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bcast_S_S512x128 : S_.BroadcastsInDim S512x128 (![] : Fin 0 → Fin S512x128.rank)
  bitsLt_bf16_f32 : FTy.bits .bf16 < FTy.bits .f32
  inb_S32x512_S32x512_0_0 : ∀ a, (![0, 0] : Fin 2 → Nat) a + S32x512.size a ≤ S32x512.size a
  h_S32x512 : 0 < S32x512.numel
  h_S32x128 : 0 < S32x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S128 : S1x128.ShapeCasts S128
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S32x128_S32x128x1 : S32x128.ShapeCasts S32x128x1
  shapeCasts_S32x512_S32x1x512 : S32x512.ShapeCasts S32x1x512
  broadcasts_S32x128x1_S32x128x512 : S32x128x1.Broadcasts S32x128x512
  broadcasts_S32x1x512_S32x128x512 : S32x1x512.Broadcasts S32x128x512
  natLt_1_32 : 1 < 32
  shapeCasts_S32x128x512_S4096x512 : S32x128x512.ShapeCasts S4096x512
  slices_S4096x128_o0_0_S4096x1 : S4096x128.Slices ![0, 0] S4096x1
  shapeCasts_S4096x1_S4096 : S4096x1.ShapeCasts S4096
  shapeCasts_S4096_S32x128 : S4096.ShapeCasts S32x128
  shapeCasts_S128_S1x1x128 : S128.ShapeCasts S1x1x128
  broadcasts_S32x128x1_S32x128x128 : S32x128x1.Broadcasts S32x128x128
  broadcasts_S1x1x128_S32x128x128 : S1x1x128.Broadcasts S32x128x128
  shapeCasts_S32x128x128_S4096x128 : S32x128x128.ShapeCasts S4096x128
  shapeCasts_S128_S1x128 : S128.ShapeCasts S1x128
  broadcasts_S1x128_S4096x128 : S1x128.Broadcasts S4096x128
  shapeCasts_S4096x128_S32x128x128 : S4096x128.ShapeCasts S32x128x128
  inb_S32x128x128_S32x128x128_0_0_0 : ∀ a, (![0, 0, 0] : Fin 3 → Nat) a + S32x128x128.size a ≤ S32x128x128.size a
  h_S32x128x128 : 0 < S32x128x128.numel
  dot_S4096x512_S512x128_S4096x128_1_0_0_1_n_n_wf : DotDims.WF S4096x512 S512x128 S4096x128 [1] [0] [0] [1] [] []
  dot_S4096x128_S128x128_S4096x128_1_0_0_1_n_n_wf : DotDims.WF S4096x128 S128x128 S4096x128 [1] [0] [0] [1] [] []
  hrank0 : 0 < grid0.rank
  k0_mult1_dvd : ∀ i : grid0.Coords, 128 ∣ (k0_mult1 i).toNat
  k0_off1_inb : ∀ i : grid0.Coords, ∀ a, (k0_off1 i) a + S32x128.size a ≤ S32x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S256x512.size a
  hwx0_0 : ∀ i : grid0.Coords, EltTy.bits .i32 = 32 ∨ (Rect.block (s := S256x512) S32x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S256x512.size a
  hwx0_1 : ∀ i : grid0.Coords, EltTy.bits .i32 = 32 ∨ (Rect.block (s := S256x512) S32x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .bf16 = 32 ∨ (Rect.block (s := S512x128) S512x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x128x128.size a ≤ S256x512x128.size a
  hwx0_7 : ∀ i : grid0.Coords, EltTy.bits .f32 = 32 ∨ (Rect.block (s := S256x512x128) S32x128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x128x128.size a ≤ S256x512x128.size a
  hwx0_8 : ∀ i : grid0.Coords, EltTy.bits .f32 = 32 ∨ (Rect.block (s := S256x512x128) S32x128x128.size (cc0_transform_8 i) (hinb0_8 i)).WholeWords (EltTy.packing .f32)

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S32x128x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S32x128x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S256x512 : Shape := ⟨2, ![256, 512]⟩
abbrev S1x128 : Shape := ⟨2, ![1, 128]⟩
abbrev S128 : Shape := ⟨1, ![128]⟩
abbrev S128x128 : Shape := ⟨2, ![128, 128]⟩
abbrev S256x512x1 : Shape := ⟨3, ![256, 512, 1]⟩
abbrev S256x1x512 : Shape := ⟨3, ![256, 1, 512]⟩
abbrev S256x512x512 : Shape := ⟨3, ![256, 512, 512]⟩
abbrev S_ : Shape := ⟨0, ![]⟩
abbrev S256x512x2 : Shape := ⟨3, ![256, 512, 2]⟩
abbrev S256x512x2x1 : Shape := ⟨4, ![256, 512, 2, 1]⟩
abbrev S1x1x1x128 : Shape := ⟨4, ![1, 1, 1, 128]⟩
abbrev S256x512x2x128 : Shape := ⟨4, ![256, 512, 2, 128]⟩
abbrev S256x512x128 : Shape := ⟨3, ![256, 512, 128]⟩

abbrev nBuf : Space → Nat
  | .hbm => 102
  | .vmem => 0
  | .smem => 0
  | _ => 0

abbrev bufTy : (tb : Table) → Fin (tcTables nBuf tb) → BufTy
  | .hbm, ⟨0, _⟩ => ⟨S256x512, .i32⟩
  | .hbm, ⟨1, _⟩ => ⟨S256x512, .i32⟩
  | .hbm, ⟨2, _⟩ => ⟨S1x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x512x1, .i32⟩
  | .hbm, ⟨7, _⟩ => ⟨S256x1x512, .i32⟩
  | .hbm, ⟨8, _⟩ => ⟨S256x512x512, .i32⟩
  | .hbm, ⟨9, _⟩ => ⟨S256x512x512, .i32⟩
  | .hbm, ⟨10, _⟩ => ⟨S256x512x512, .i1⟩
  | .hbm, ⟨11, _⟩ => ⟨S256x512x512, .i32⟩
  | .hbm, ⟨12, _⟩ => ⟨S_, .i32⟩
  | .hbm, ⟨13, _⟩ => ⟨S256x512, .i32⟩
  | .hbm, ⟨14, _⟩ => ⟨S256x512, .f32⟩
  | .hbm, ⟨15, _⟩ => ⟨S256x512x1, .i32⟩
  | .hbm, ⟨16, _⟩ => ⟨S256x1x512, .i32⟩
  | .hbm, ⟨17, _⟩ => ⟨S256x512x512, .i32⟩
  | .hbm, ⟨18, _⟩ => ⟨S256x512x512, .i32⟩
  | .hbm, ⟨19, _⟩ => ⟨S256x512x512, .i1⟩
  | .hbm, ⟨20, _⟩ => ⟨S256x512x512, .i32⟩
  | .hbm, ⟨21, _⟩ => ⟨S_, .i32⟩
  | .hbm, ⟨22, _⟩ => ⟨S256x512, .i32⟩
  | .hbm, ⟨23, _⟩ => ⟨S256x512, .f32⟩
  | .hbm, ⟨24, _⟩ => ⟨S256x512x1, .f32⟩
  | .hbm, ⟨25, _⟩ => ⟨S256x512x1, .f32⟩
  | .hbm, ⟨26, _⟩ => ⟨S256x512x2, .f32⟩
  | .hbm, ⟨27, _⟩ => ⟨S256x512x1, .i32⟩
  | .hbm, ⟨28, _⟩ => ⟨S256x1x512, .i32⟩
  | .hbm, ⟨29, _⟩ => ⟨S256x512x512, .i32⟩
  | .hbm, ⟨30, _⟩ => ⟨S256x512x512, .i32⟩
  | .hbm, ⟨31, _⟩ => ⟨S256x512x512, .i1⟩
  | .hbm, ⟨32, _⟩ => ⟨S256x512x512, .i32⟩
  | .hbm, ⟨33, _⟩ => ⟨S_, .i32⟩
  | .hbm, ⟨34, _⟩ => ⟨S256x512, .i32⟩
  | .hbm, ⟨35, _⟩ => ⟨S256x512, .f32⟩
  | .hbm, ⟨36, _⟩ => ⟨S256x512x1, .i32⟩
  | .hbm, ⟨37, _⟩ => ⟨S256x1x512, .i32⟩
  | .hbm, ⟨38, _⟩ => ⟨S256x512x512, .i32⟩
  | .hbm, ⟨39, _⟩ => ⟨S256x512x512, .i32⟩
  | .hbm, ⟨40, _⟩ => ⟨S256x512x512, .i1⟩
  | .hbm, ⟨41, _⟩ => ⟨S256x512x512, .i32⟩
  | .hbm, ⟨42, _⟩ => ⟨S_, .i32⟩
  | .hbm, ⟨43, _⟩ => ⟨S256x512, .i32⟩
  | .hbm, ⟨44, _⟩ => ⟨S256x512, .f32⟩
  | .hbm, ⟨45, _⟩ => ⟨S256x512x1, .f32⟩
  | .hbm, ⟨46, _⟩ => ⟨S256x512x1, .f32⟩
  | .hbm, ⟨47, _⟩ => ⟨S256x512x2, .f32⟩
  | .hbm, ⟨48, _⟩ => ⟨S256x512x1, .i32⟩
  | .hbm, ⟨49, _⟩ => ⟨S_, .i32⟩
  | .hbm, ⟨50, _⟩ => ⟨S256x512x1, .i32⟩
  | .hbm, ⟨51, _⟩ => ⟨S256x512x1, .i1⟩
  | .hbm, ⟨52, _⟩ => ⟨S_, .f32⟩
  | .hbm, ⟨53, _⟩ => ⟨S_, .f32⟩
  | .hbm, ⟨54, _⟩ => ⟨S256x512x2, .i1⟩
  | .hbm, ⟨55, _⟩ => ⟨S256x512x2, .f32⟩
  | .hbm, ⟨56, _⟩ => ⟨S256x512x2, .f32⟩
  | .hbm, ⟨57, _⟩ => ⟨S256x512x1, .i32⟩
  | .hbm, ⟨58, _⟩ => ⟨S_, .i32⟩
  | .hbm, ⟨59, _⟩ => ⟨S256x512x1, .i32⟩
  | .hbm, ⟨60, _⟩ => ⟨S256x512x1, .i1⟩
  | .hbm, ⟨61, _⟩ => ⟨S_, .f32⟩
  | .hbm, ⟨62, _⟩ => ⟨S_, .f32⟩
  | .hbm, ⟨63, _⟩ => ⟨S256x512x2, .i1⟩
  | .hbm, ⟨64, _⟩ => ⟨S256x512x2, .f32⟩
  | .hbm, ⟨65, _⟩ => ⟨S256x512x2, .f32⟩
  | .hbm, ⟨66, _⟩ => ⟨S256x512x2x1, .f32⟩
  | .hbm, ⟨67, _⟩ => ⟨S128, .f32⟩
  | .hbm, ⟨68, _⟩ => ⟨S1x1x1x128, .f32⟩
  | .hbm, ⟨69, _⟩ => ⟨S256x512x2x128, .f32⟩
  | .hbm, ⟨70, _⟩ => ⟨S256x512x2x128, .f32⟩
  | .hbm, ⟨71, _⟩ => ⟨S256x512x2x128, .f32⟩
  | .hbm, ⟨72, _⟩ => ⟨S1x1x1x128, .f32⟩
  | .hbm, ⟨73, _⟩ => ⟨S256x512x2x128, .f32⟩
  | .hbm, ⟨74, _⟩ => ⟨S256x512x2x128, .f32⟩
  | .hbm, ⟨75, _⟩ => ⟨S_, .f32⟩
  | .hbm, ⟨76, _⟩ => ⟨S256x512x2x128, .f32⟩
  | .hbm, ⟨77, _⟩ => ⟨S256x512x2x128, .f32⟩
  | .hbm, ⟨78, _⟩ => ⟨S256x512x2x128, .f32⟩
  | .hbm, ⟨79, _⟩ => ⟨S1x1x1x128, .f32⟩
  | .hbm, ⟨80, _⟩ => ⟨S256x512x2x128, .f32⟩
  | .hbm, ⟨81, _⟩ => ⟨S256x512x2x128, .f32⟩
  | .hbm, ⟨82, _⟩ => ⟨S_, .f32⟩
  | .hbm, ⟨83, _⟩ => ⟨S256x512x128, .f32⟩
  | .hbm, ⟨84, _⟩ => ⟨S256x512x2x1, .f32⟩
  | .hbm, ⟨85, _⟩ => ⟨S128, .f32⟩
  | .hbm, ⟨86, _⟩ => ⟨S1x1x1x128, .f32⟩
  | .hbm, ⟨87, _⟩ => ⟨S256x512x2x128, .f32⟩
  | .hbm, ⟨88, _⟩ => ⟨S256x512x2x128, .f32⟩
  | .hbm, ⟨89, _⟩ => ⟨S256x512x2x128, .f32⟩
  | .hbm, ⟨90, _⟩ => ⟨S1x1x1x128, .f32⟩
  | .hbm, ⟨91, _⟩ => ⟨S256x512x2x128, .f32⟩
  | .hbm, ⟨92, _⟩ => ⟨S256x512x2x128, .f32⟩
  | .hbm, ⟨93, _⟩ => ⟨S_, .f32⟩
  | .hbm, ⟨94, _⟩ => ⟨S256x512x2x128, .f32⟩
  | .hbm, ⟨95, _⟩ => ⟨S256x512x2x128, .f32⟩
  | .hbm, ⟨96, _⟩ => ⟨S256x512x2x128, .f32⟩
  | .hbm, ⟨97, _⟩ => ⟨S1x1x1x128, .f32⟩
  | .hbm, ⟨98, _⟩ => ⟨S256x512x2x128, .f32⟩
  | .hbm, ⟨99, _⟩ => ⟨S256x512x2x128, .f32⟩
  | .hbm, ⟨100, _⟩ => ⟨S_, .f32⟩
  | .hbm, ⟨101, _⟩ => ⟨S256x512x128, .f32⟩
  | _, _ => ⟨S256x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_3 : Ref sig .tc := ⟨.hbm, 49, rfl⟩
abbrev main_v39 : Ref sig .tc := ⟨.hbm, 50, rfl⟩
abbrev main_v40 : Ref sig .tc := ⟨.hbm, 51, rfl⟩
abbrev main_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v41 : Ref sig .tc := ⟨.hbm, 56, rfl⟩
abbrev main_v42 : Ref sig .tc := ⟨.hbm, 57, rfl⟩
abbrev main_c_4 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call2_cst : Ref sig .tc := ⟨.hbm, 75, rfl⟩
abbrev main_call2_v0 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call3_cst : Ref sig .tc := ⟨.hbm, 93, rfl⟩
abbrev main_call3_v0 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_7 : Ref sig .tc := ⟨.hbm, 100, rfl⟩
abbrev main_v75 : Ref sig .tc := ⟨.hbm, 101, rfl⟩

abbrev nD : Nat := 1
abbrev τ : Topo := Topo.v7x

variable {F : FTy → Type} [FloatOps F]

class Facts₀ : Prop where
  bcast_S256x512_S256x512x1_0_1 : S256x512.BroadcastsInDim S256x512x1 (![0, 1] : Fin 2 → Fin S256x512x1.rank)
  bcast_S256x512_S256x1x512_0_2 : S256x512.BroadcastsInDim S256x1x512 (![0, 2] : Fin 2 → Fin S256x1x512.rank)
  bcast_S256x512x1_S256x512x512_0_1_2 : S256x512x1.BroadcastsInDim S256x512x512 (![0, 1, 2] : Fin 3 → Fin S256x512x512.rank)
  bcast_S256x1x512_S256x512x512_0_1_2 : S256x1x512.BroadcastsInDim S256x512x512 (![0, 1, 2] : Fin 3 → Fin S256x512x512.rank)
  natLt_1_32 : 1 < 32
  reducesTo_S256x512x512_S256x512_d2 : S256x512x512.ReducesTo [2] S256x512
  h_S_ : 0 < S_.numel
  concatenates_S256x512x1_S256x512x1_S256x512x2_d2 : Shape.Concatenates [S256x512x1, S256x512x1] S256x512x2 2
  bcast_S_S256x512x1 : S_.BroadcastsInDim S256x512x1 (![] : Fin 0 → Fin S256x512x1.rank)
  bcast_S256x512x1_S256x512x2_0_1_2 : S256x512x1.BroadcastsInDim S256x512x2 (![0, 1, 2] : Fin 3 → Fin S256x512x2.rank)
  bcast_S_S256x512x2 : S_.BroadcastsInDim S256x512x2 (![] : Fin 0 → Fin S256x512x2.rank)
  bcast_S256x512x2_S256x512x2x1_0_1_2 : S256x512x2.BroadcastsInDim S256x512x2x1 (![0, 1, 2] : Fin 3 → Fin S256x512x2x1.rank)
  shapeCasts_S1x128_S128 : S1x128.ShapeCasts S128
  bcast_S128_S1x1x1x128_3 : S128.BroadcastsInDim S1x1x1x128 (![3] : Fin 1 → Fin S1x1x1x128.rank)
  bcast_S256x512x2x1_S256x512x2x128_0_1_2_3 : S256x512x2x1.BroadcastsInDim S256x512x2x128 (![0, 1, 2, 3] : Fin 4 → Fin S256x512x2x128.rank)
  bcast_S1x1x1x128_S256x512x2x128_0_1_2_3 : S1x1x1x128.BroadcastsInDim S256x512x2x128 (![0, 1, 2, 3] : Fin 4 → Fin S256x512x2x128.rank)
  bcast_S_S256x512x2x128 : S_.BroadcastsInDim S256x512x2x128 (![] : Fin 0 → Fin S256x512x2x128.rank)
  reducesTo_S256x512x2x128_S256x512x128_d2 : S256x512x2x128.ReducesTo [2] S256x512x128
  dot_S256x512x2x128_S128x128_S256x512x2x128_3_0_012_1_n_n_wf : DotDims.WF S256x512x2x128 S128x128 S256x512x2x128 [3] [0] [0, 1, 2] [1] [] []

variable [Facts₀]

def dot_S256x512x2x128_S128x128_S256x512x2x128_3_0_012_1_n_n : DotDims S256x512x2x128 S128x128 S256x512x2x128 where
  lhsContracting := [3]
  rhsContracting := [0]
  lhsNonContracting := [0, 1, 2]
  rhsNonContracting := [1]
  lhsBatch := []
  rhsBatch := []
  wf := dot_S256x512x2x128_S128x128_S256x512x2x128_3_0_012_1_n_n_wf

class Facts : Prop extends Facts₀ where

variable [Facts]
-- ==== Proof.KPiece.lean ====
/-
  What one grid point leaves in the two output blocks, as a pure function of the blocks it loads.

  At grid point `(bi, qi)` the body loads the two id blocks whole (32 batch rows, all 512 positions), and from each
  also the 128 query positions starting at column `128 * qi`; it loads the all-ones matrix, the two first-layer
  vectors, the second-layer matrix and its bias. It then stores each output block ONCE, whole. So the block an output's
  staging buffer ends with is that one store's value: the body's arithmetic applied to the loaded blocks.
-/
import proofs.«139890_j1889785610786_2_alg».proof.Proof.Gen.KernelIdeal.Frame
import Idealize.ShloMosaic.Lib.Pipeline.Value
import Idealize.ShloMosaic.Lib.Tactic

set_option maxRecDepth 16384

noncomputable section

namespace Cert.KernelIdeal.Piece

open Cert.KernelIdeal Cert.KernelIdeal.Gen Idealize.ShloMosaic Idealize.ShloMosaic.TcCoe Idealize.ShloMosaic.Tactic Idealize.SL.Sem

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The query columns of an id block at grid point `i`: the 128 positions from column `128 * i 1` on, of all 32 rows. -/
def qcols (i : grid0.Coords) (x : Vec F S32x512 .i32) : Vec F S32x128 .i32 :=
  View.ld x (Rect.unit (s := S32x512) (k0_off1 i) S32x128.size (k0_off1_inb i))

/-- The value stored to the first output block: the source ids' queries counted in the source and destination rows. -/
def body7 (i : grid0.Coords) (x0 x1 : Vec F S32x512 .i32) (x2 : Vec F S512x128 .bf16) (x3 : Vec F S1x128 .f32)
    (x4 : Vec F S128 .f32) (x5 : Vec F S128x128 .bf16) (x6 : Vec F S128 .f32) : Vec F S32x128x128 .f32 :=
  k0_pay1 x4 (k0_pay5 x5) (k0_pay6 x6)
    (k0_pay13 (qcols i x0) (k0_pay4 x3) x4 (k0_pay7 x0 (qcols i x0) x2))
    (k0_pay14 (qcols i x0) (k0_pay4 x3) (k0_pay8 x1 (qcols i x0) x2))

/-- The value stored to the second output block: the destination ids' queries counted in the same two rows. -/
def body8 (i : grid0.Coords) (x0 x1 : Vec F S32x512 .i32) (x2 : Vec F S512x128 .bf16) (x3 : Vec F S1x128 .f32)
    (x4 : Vec F S128 .f32) (x5 : Vec F S128x128 .bf16) (x6 : Vec F S128 .f32) : Vec F S32x128x128 .f32 :=
  k0_pay2 (k0_pay4 x3) x4 (k0_pay5 x5) (k0_pay6 x6)
    (k0_pay11 x0 (qcols i x1) (k0_pay3 x2))
    (k0_pay12 x1 (qcols i x1) (k0_pay3 x2))

/-- The first output's staging buffer ends with its one whole-block store's value. -/
theorem out7_eq (c : Dev nD) (i : grid0.Coords) (a2 : Memref sig .tc .vmem S32x512 .i32) (h2 : a2.IsWhole) (a3 : Memref sig .tc .vmem S32x512 .i32) (h3 : a3.IsWhole) (a4 : Memref sig .tc .vmem S512x128 .bf16) (h4 : a4.IsWhole) (a5 : Memref sig .tc .vmem S1x128 .f32) (h5 : a5.IsWhole) (a6 : Memref sig .tc .vmem S128 .f32) (h6 : a6.IsWhole) (a7 : Memref sig .tc .vmem S128x128 .bf16) (h7 : a7.IsWhole) (a8 : Memref sig .tc .vmem S128 .f32) (h8 : a8.IsWhole) (a9 : Memref sig .tc .vmem S32x128x128 .f32) (h9 : a9.IsWhole) (a10 : Memref sig .tc .vmem S32x128x128 .f32) (h10 : a10.IsWhole)
    (x0 : Vec F S32x512 .i32) (x1 : Vec F S32x512 .i32) (x2 : Vec F S512x128 .bf16) (x3 : Vec F S1x128 .f32) (x4 : Vec F S128 .f32) (x5 : Vec F S128x128 .bf16) (x6 : Vec F S128 .f32) :
    out0_A_7 c i a2 h2 a3 h3 a4 h4 a5 h5 a6 h6 a7 h7 a8 h8 a9 h9 a10 h10 x0 x1 x2 x3 x4 x5 x6 = body7 i x0 x1 x2 x3 x4 x5 x6 := by
  unfold out0_A_7
  rw [View.read_writes_eq_canon _ _ _ (cover0_A_7 c i a2 h2 a3 h3 a4 h4 a5 h5 a6 h6 a7 h7 a8 h8 a9 h9 a10 h10 x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S32x512) hz2, View.ld_unit_zero (S := S512x128) hz2, View.ld_unit_zero (S := S1x128) hz2,
    View.ld_unit_zero (S := S128x128) hz2, View.ld_unit_zero (S := S128) hz1]
  rfl

/-- The second output's staging buffer ends with its one whole-block store's value. -/
theorem out8_eq (c : Dev nD) (i : grid0.Coords) (a2 : Memref sig .tc .vmem S32x512 .i32) (h2 : a2.IsWhole) (a3 : Memref sig .tc .vmem S32x512 .i32) (h3 : a3.IsWhole) (a4 : Memref sig .tc .vmem S512x128 .bf16) (h4 : a4.IsWhole) (a5 : Memref sig .tc .vmem S1x128 .f32) (h5 : a5.IsWhole) (a6 : Memref sig .tc .vmem S128 .f32) (h6 : a6.IsWhole) (a7 : Memref sig .tc .vmem S128x128 .bf16) (h7 : a7.IsWhole) (a8 : Memref sig .tc .vmem S128 .f32) (h8 : a8.IsWhole) (a9 : Memref sig .tc .vmem S32x128x128 .f32) (h9 : a9.IsWhole) (a10 : Memref sig .tc .vmem S32x128x128 .f32) (h10 : a10.IsWhole)
    (x0 : Vec F S32x512 .i32) (x1 : Vec F S32x512 .i32) (x2 : Vec F S512x128 .bf16) (x3 : Vec F S1x128 .f32) (x4 : Vec F S128 .f32) (x5 : Vec F S128x128 .bf16) (x6 : Vec F S128 .f32) :
    out0_A_8 c i a2 h2 a3 h3 a4 h4 a5 h5 a6 h6 a7 h7 a8 h8 a9 h9 a10 h10 x0 x1 x2 x3 x4 x5 x6 = body8 i x0 x1 x2 x3 x4 x5 x6 := by
  unfold out0_A_8
  rw [View.read_writes_eq_canon _ _ _ (cover0_A_8 c i a2 h2 a3 h3 a4 h4 a5 h5 a6 h6 a7 h7 a8 h8 a9 h9 a10 h10 x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S32x512) hz2, View.ld_unit_zero (S := S512x128) hz2, View.ld_unit_zero (S := S1x128) hz2,
    View.ld_unit_zero (S := S128x128) hz2, View.ld_unit_zero (S := S128) hz1]
  rfl

end Cert.KernelIdeal.Piece

end
-- ==== Proof.KMatmul.lean ====
/-
  The two matrix products of the kernel body at the exact values: into a zero accumulator each entry is the plain sum
  of products over the contracted axis — 512 key positions for the counting product against the all-ones matrix,
  128 hidden channels for the second linear layer.
-/
import proofs.«139890_j1889785610786_2_alg».proof.Proof.Gen.KernelIdeal
import Idealize.ShloMosaic.Lib.ValueIdx
import Idealize.ShloMosaic.PureOps.Ideal.Laws

noncomputable section

namespace Cert.KernelIdeal.Matmul

open Cert.KernelIdeal Cert.KernelIdeal.Gen Idealize.ShloMosaic Idealize.ShloMosaic.ValueIdx

theorem count_lhs0 (i : S4096x128.Idx) (q : dot_S4096x512_S512x128_S4096x128_1_0_0_1_n_n.contr.Idx) : (dot_S4096x512_S512x128_S4096x128_1_0_0_1_n_n.lhsIdx i q 0).val = (i 0).val := by
  unfold DotDims.lhsIdx
  rw [dif_neg (show ¬(0 : Fin S4096x512.rank) ∈ dot_S4096x512_S512x128_S4096x128_1_0_0_1_n_n.lhsBatch by decide), dif_pos (show (0 : Fin S4096x512.rank) ∈ dot_S4096x512_S512x128_S4096x128_1_0_0_1_n_n.lhsNonContracting by decide)]
  rfl
theorem count_lhs1 (i : S4096x128.Idx) (q : dot_S4096x512_S512x128_S4096x128_1_0_0_1_n_n.contr.Idx) : (dot_S4096x512_S512x128_S4096x128_1_0_0_1_n_n.lhsIdx i q 1).val = (q ⟨0, by decide⟩).val :=
  dot_S4096x512_S512x128_S4096x128_1_0_0_1_n_n.lhsIdx_val_of_single rfl i q
theorem count_rhs0 (i : S4096x128.Idx) (q : dot_S4096x512_S512x128_S4096x128_1_0_0_1_n_n.contr.Idx) : (dot_S4096x512_S512x128_S4096x128_1_0_0_1_n_n.rhsIdx i q 0).val = (q ⟨0, by decide⟩).val :=
  dot_S4096x512_S512x128_S4096x128_1_0_0_1_n_n.rhsIdx_val_of_single rfl i q
theorem count_rhs1 (i : S4096x128.Idx) (q : dot_S4096x512_S512x128_S4096x128_1_0_0_1_n_n.contr.Idx) : (dot_S4096x512_S512x128_S4096x128_1_0_0_1_n_n.rhsIdx i q 1).val = (i 1).val := by
  unfold DotDims.rhsIdx
  rw [dif_neg (show ¬(1 : Fin S512x128.rank) ∈ dot_S4096x512_S512x128_S4096x128_1_0_0_1_n_n.rhsBatch by decide), dif_pos (show (1 : Fin S512x128.rank) ∈ dot_S4096x512_S512x128_S4096x128_1_0_0_1_n_n.rhsNonContracting by decide)]
  rfl

/-- Into a zero accumulator the product at (row `n`, column `e`) is the sum over the 512 contracted positions of the
    left operand's row `n` against the right operand's column `e`. -/
theorem count_apply (L : FVec Ideal S4096x512 .bf16) (R : FVec Ideal S512x128 .bf16) (n : Fin 4096) (e : Fin 128) :
    matmul dot_S4096x512_S512x128_S4096x128_1_0_0_1_n_n none L R (constant S4096x128 .f32 0x00000000#32) (ix2 n e) = ∑ k : Fin 512, L (ix2 n k) * R (ix2 k e) := by
  simp only [matmul]
  rw [Ideal.matmul_constant_zero_apply, ← Equiv.sum_comp (ValueIdx.contrEquiv1 dot_S4096x512_S512x128_S4096x128_1_0_0_1_n_n 512 rfl rfl).symm]
  refine Finset.sum_congr rfl fun k _ => ?_
  have hk := ValueIdx.contrEquiv1_symm_val dot_S4096x512_S512x128_S4096x128_1_0_0_1_n_n 512 rfl rfl k
  have el : dot_S4096x512_S512x128_S4096x128_1_0_0_1_n_n.lhsIdx (ix2 n e) ((ValueIdx.contrEquiv1 dot_S4096x512_S512x128_S4096x128_1_0_0_1_n_n 512 rfl rfl).symm k) = ix2 n k := funext fun a => Fin.ext (by
    match a with
    | ⟨0, _⟩ => exact count_lhs0 _ _
    | ⟨1, _⟩ => exact (count_lhs1 _ _).trans hk)
  have er : dot_S4096x512_S512x128_S4096x128_1_0_0_1_n_n.rhsIdx (ix2 n e) ((ValueIdx.contrEquiv1 dot_S4096x512_S512x128_S4096x128_1_0_0_1_n_n 512 rfl rfl).symm k) = ix2 k e := funext fun a => Fin.ext (by
    match a with
    | ⟨0, _⟩ => exact (count_rhs0 _ _).trans hk
    | ⟨1, _⟩ => exact count_rhs1 _ _)
  rw [el, er]

theorem layer_lhs0 (i : S4096x128.Idx) (q : dot_S4096x128_S128x128_S4096x128_1_0_0_1_n_n.contr.Idx) : (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem layer_lhs1 (i : S4096x128.Idx) (q : dot_S4096x128_S128x128_S4096x128_1_0_0_1_n_n.contr.Idx) : (dot_S4096x128_S128x128_S4096x128_1_0_0_1_n_n.lhsIdx i q 1).val = (q ⟨0, by decide⟩).val :=
  dot_S4096x128_S128x128_S4096x128_1_0_0_1_n_n.lhsIdx_val_of_single rfl i q
theorem layer_rhs0 (i : S4096x128.Idx) (q : dot_S4096x128_S128x128_S4096x128_1_0_0_1_n_n.contr.Idx) : (dot_S4096x128_S128x128_S4096x128_1_0_0_1_n_n.rhsIdx i q 0).val = (q ⟨0, by decide⟩).val :=
  dot_S4096x128_S128x128_S4096x128_1_0_0_1_n_n.rhsIdx_val_of_single rfl i q
theorem layer_rhs1 (i : S4096x128.Idx) (q : dot_S4096x128_S128x128_S4096x128_1_0_0_1_n_n.contr.Idx) : (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- Into a zero accumulator the product at (row `n`, column `e`) is the sum over the 128 contracted positions of the
    left operand's row `n` against the right operand's column `e`. -/
theorem layer_apply (L : FVec Ideal S4096x128 .bf16) (R : FVec Ideal S128x128 .bf16) (n : Fin 4096) (e : Fin 128) :
    matmul dot_S4096x128_S128x128_S4096x128_1_0_0_1_n_n none L R (constant S4096x128 .f32 0x00000000#32) (ix2 n e) = ∑ k : Fin 128, L (ix2 n k) * R (ix2 k e) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 n e) ((ValueIdx.contrEquiv1 dot_S4096x128_S128x128_S4096x128_1_0_0_1_n_n 128 rfl rfl).symm k) = ix2 n k := funext fun a => Fin.ext (by
    match a with
    | ⟨0, _⟩ => exact layer_lhs0 _ _
    | ⟨1, _⟩ => exact (layer_lhs1 _ _).trans hk)
  have er : dot_S4096x128_S128x128_S4096x128_1_0_0_1_n_n.rhsIdx (ix2 n e) ((ValueIdx.contrEquiv1 dot_S4096x128_S128x128_S4096x128_1_0_0_1_n_n 128 rfl rfl).symm k) = ix2 k e := funext fun a => Fin.ext (by
    match a with
    | ⟨0, _⟩ => exact (layer_rhs0 _ _).trans hk
    | ⟨1, _⟩ => exact layer_rhs1 _ _)
  rw [el, er]

end Cert.KernelIdeal.Matmul

end
-- ==== Proof.LibLayout.lean ====
/-
  The layout operations of the kernel body read at an index, at the body's literal shapes: a reshape keeps the
  row-major position, a broadcast repeats along the axes of extent one, a unit-stride slice shifts by its offset.
  A row `n` of a matrix of 4096 rows is the pair (batch row `b`, query position `r`) with `n = 128 * b + r`.
-/
import Idealize.ShloMosaic.Lib.Pipeline.Value
import Idealize.ShloMosaic.Lib.ValueIdx

namespace Cert.LibLayout

open Idealize.ShloMosaic Idealize.ShloMosaic.ValueIdx

variable {α : Type}

/-- The row of the flattened matrix that holds batch row `b`, query position `r`. -/
def row (b : Fin 32) (r : Fin 128) : Fin 4096 := ⟨128 * b.val + r.val, by have := b.isLt; have := r.isLt; omega⟩

theorem row_val (b : Fin 32) (r : Fin 128) : (row b r).val = 128 * b.val + r.val := rfl

/-- A trailing unit axis added to a [32, 128] array. -/
theorem cast_32x128_32x128x1 (v : (⟨2, ![32, 128]⟩ : Shape).Idx → α) (h : (⟨2, ![32, 128]⟩ : Shape).ShapeCasts ⟨3, ![32, 128, 1]⟩)
    (b : Fin 32) (r : Fin 128) (z : Fin 1) : shapeCast ⟨3, ![32, 128, 1]⟩ v h (ix3 b r z) = v (ix2 b r) := by
  refine shapeCast_apply v h _ _ ?_
  rw [Shape.rowMajor_val_two, Shape.rowMajor_val_three]
  show b.val * 128 + r.val = (b.val * 128 + r.val) * 1 + z.val
  omega

/-- A middle unit axis added to a [32, 512] array. -/
theorem cast_32x512_32x1x512 (v : (⟨2, ![32, 512]⟩ : Shape).Idx → α) (h : (⟨2, ![32, 512]⟩ : Shape).ShapeCasts ⟨3, ![32, 1, 512]⟩)
    (b : Fin 32) (z : Fin 1) (k : Fin 512) : shapeCast ⟨3, ![32, 1, 512]⟩ v h (ix3 b z k) = v (ix2 b k) := by
  refine shapeCast_apply v h _ _ ?_
  rw [Shape.rowMajor_val_two, Shape.rowMajor_val_three]
  show b.val * 512 + k.val = (b.val * 1 + z.val) * 512 + k.val
  have := z.isLt; have hz : z.val = 0 := by omega
  rw [hz]; ring

/-- The leading two axes of a [32, 128, 512] array flattened. -/
theorem cast_32x128x512_4096x512 (v : (⟨3, ![32, 128, 512]⟩ : Shape).Idx → α) (h : (⟨3, ![32, 128, 512]⟩ : Shape).ShapeCasts ⟨2, ![4096, 512]⟩)
    (b : Fin 32) (r : Fin 128) (k : Fin 512) : shapeCast ⟨2, ![4096, 512]⟩ v h (ix2 (row b r) k) = v (ix3 b r k) := by
  refine shapeCast_apply v h _ _ ?_
  rw [Shape.rowMajor_val_three, Shape.rowMajor_val_two]
  show (b.val * 128 + r.val) * 512 + k.val = (128 * b.val + r.val) * 512 + k.val
  ring

/-- The trailing unit axis of a [4096, 1] array dropped. -/
theorem cast_4096x1_4096 (v : (⟨2, ![4096, 1]⟩ : Shape).Idx → α) (h : (⟨2, ![4096, 1]⟩ : Shape).ShapeCasts ⟨1, ![4096]⟩)
    (n : Fin 4096) : shapeCast ⟨1, ![4096]⟩ v h (ix1 n) = v (ix2 n 0) := by
  refine shapeCast_apply v h _ _ ?_
  rw [Shape.rowMajor_val_two, Shape.rowMajor_val_one]
  show n.val * 1 + 0 = n.val
  omega

/-- A vector of 4096 entries folded to [32, 128]. -/
theorem cast_4096_32x128 (v : (⟨1, ![4096]⟩ : Shape).Idx → α) (h : (⟨1, ![4096]⟩ : Shape).ShapeCasts ⟨2, ![32, 128]⟩)
    (b : Fin 32) (r : Fin 128) : shapeCast ⟨2, ![32, 128]⟩ v h (ix2 b r) = v (ix1 (row b r)) := by
  refine shapeCast_apply v h _ _ ?_
  rw [Shape.rowMajor_val_one, Shape.rowMajor_val_two]
  show 128 * b.val + r.val = b.val * 128 + r.val
  ring

/-- Two leading unit axes added to a vector of 128 entries. -/
theorem cast_128_1x1x128 (v : (⟨1, ![128]⟩ : Shape).Idx → α) (h : (⟨1, ![128]⟩ : Shape).ShapeCasts ⟨3, ![1, 1, 128]⟩)
    (y z : Fin 1) (d : Fin 128) : shapeCast ⟨3, ![1, 1, 128]⟩ v h (ix3 y z d) = v (ix1 d) := by
  refine shapeCast_apply v h _ _ ?_
  rw [Shape.rowMajor_val_one, Shape.rowMajor_val_three]
  show d.val = (y.val * 1 + z.val) * 128 + d.val
  have := y.isLt; have := z.isLt; have hy : y.val = 0 := by omega
  have hz : z.val = 0 := by omega
  rw [hy, hz]; ring

/-- The leading two axes of a [32, 128, 128] array flattened. -/
theorem cast_32x128x128_4096x128 (v : (⟨3, ![32, 128, 128]⟩ : Shape).Idx → α) (h : (⟨3, ![32, 128, 128]⟩ : Shape).ShapeCasts ⟨2, ![4096, 128]⟩)
    (b : Fin 32) (r : Fin 128) (d : Fin 128) : shapeCast ⟨2, ![4096, 128]⟩ v h (ix2 (row b r) d) = v (ix3 b r d) := by
  refine shapeCast_apply v h _ _ ?_
  rw [Shape.rowMajor_val_three, Shape.rowMajor_val_two]
  show (b.val * 128 + r.val) * 128 + d.val = (128 * b.val + r.val) * 128 + d.val
  ring

/-- The rows of a [4096, 128] matrix unfolded to (batch row, query position). -/
theorem cast_4096x128_32x128x128 (v : (⟨2, ![4096, 128]⟩ : Shape).Idx → α) (h : (⟨2, ![4096, 128]⟩ : Shape).ShapeCasts ⟨3, ![32, 128, 128]⟩)
    (b : Fin 32) (r : Fin 128) (e : Fin 128) : shapeCast ⟨3, ![32, 128, 128]⟩ v h (ix3 b r e) = v (ix2 (row b r) e) := by
  refine shapeCast_apply v h _ _ ?_
  rw [Shape.rowMajor_val_two, Shape.rowMajor_val_three]
  show (128 * b.val + r.val) * 128 + e.val = (b.val * 128 + r.val) * 128 + e.val
  ring

/-- A leading unit axis added to a vector of 128 entries. -/
theorem cast_128_1x128 (v : (⟨1, ![128]⟩ : Shape).Idx → α) (h : (⟨1, ![128]⟩ : Shape).ShapeCasts ⟨2, ![1, 128]⟩)
    (z : Fin 1) (e : Fin 128) : shapeCast ⟨2, ![1, 128]⟩ v h (ix2 z e) = v (ix1 e) := by
  refine shapeCast_apply v h _ _ ?_
  rw [Shape.rowMajor_val_one, Shape.rowMajor_val_two]
  show e.val = z.val * 128 + e.val
  have := z.isLt; have hz : z.val = 0 := by omega
  rw [hz]; ring

/-- The leading unit axis of a [1, 128] array dropped. -/
theorem cast_1x128_128 (v : (⟨2, ![1, 128]⟩ : Shape).Idx → α) (h : (⟨2, ![1, 128]⟩ : Shape).ShapeCasts ⟨1, ![128]⟩)
    (d : Fin 128) : shapeCast ⟨1, ![128]⟩ v h (ix1 d) = v (ix2 0 d) := by
  refine shapeCast_apply v h _ _ ?_
  rw [Shape.rowMajor_val_two, Shape.rowMajor_val_one]
  show 0 * 128 + d.val = d.val
  omega

/-- A query column repeated along the 512 key positions. -/
theorem bcast_32x128x1_32x128x512 (v : (⟨3, ![32, 128, 1]⟩ : Shape).Idx → α) (h : (⟨3, ![32, 128, 1]⟩ : Shape).Broadcasts ⟨3, ![32, 128, 512]⟩)
    (b : Fin 32) (r : Fin 128) (k : Fin 512) : broadcastTo ⟨3, ![32, 128, 512]⟩ v h (ix3 b r k) = v (ix3 b r 0) := by
  refine broadcastTo_apply v h _ _ fun a => ?_
  match a with
  | ⟨0, _⟩ => show b.val = if (32 : Nat) = 1 then 0 else b.val; rw [if_neg (by decide)]
  | ⟨1, _⟩ => show r.val = if (128 : Nat) = 1 then 0 else r.val; rw [if_neg (by decide)]
  | ⟨2, _⟩ => show (0 : Nat) = if (1 : Nat) = 1 then 0 else k.val; rw [if_pos rfl]

/-- A key row repeated along the 128 query positions. -/
theorem bcast_32x1x512_32x128x512 (v : (⟨3, ![32, 1, 512]⟩ : Shape).Idx → α) (h : (⟨3, ![32, 1, 512]⟩ : Shape).Broadcasts ⟨3, ![32, 128, 512]⟩)
    (b : Fin 32) (r : Fin 128) (k : Fin 512) : broadcastTo ⟨3, ![32, 128, 512]⟩ v h (ix3 b r k) = v (ix3 b 0 k) := by
  refine broadcastTo_apply v h _ _ fun a => ?_
  match a with
  | ⟨0, _⟩ => show b.val = if (32 : Nat) = 1 then 0 else b.val; rw [if_neg (by decide)]
  | ⟨1, _⟩ => show (0 : Nat) = if (1 : Nat) = 1 then 0 else r.val; rw [if_pos rfl]
  | ⟨2, _⟩ => show k.val = if (512 : Nat) = 1 then 0 else k.val; rw [if_neg (by decide)]

/-- An appearance column repeated along the 128 channels. -/
theorem bcast_32x128x1_32x128x128 (v : (⟨3, ![32, 128, 1]⟩ : Shape).Idx → α) (h : (⟨3, ![32, 128, 1]⟩ : Shape).Broadcasts ⟨3, ![32, 128, 128]⟩)
    (b : Fin 32) (r : Fin 128) (d : Fin 128) : broadcastTo ⟨3, ![32, 128, 128]⟩ v h (ix3 b r d) = v (ix3 b r 0) := by
  refine broadcastTo_apply v h _ _ fun a => ?_
  match a with
  | ⟨0, _⟩ => show b.val = if (32 : Nat) = 1 then 0 else b.val; rw [if_neg (by decide)]
  | ⟨1, _⟩ => show r.val = if (128 : Nat) = 1 then 0 else r.val; rw [if_neg (by decide)]
  | ⟨2, _⟩ => show (0 : Nat) = if (1 : Nat) = 1 then 0 else d.val; rw [if_pos rfl]

/-- A channel vector repeated over batch rows and query positions. -/
theorem bcast_1x1x128_32x128x128 (v : (⟨3, ![1, 1, 128]⟩ : Shape).Idx → α) (h : (⟨3, ![1, 1, 128]⟩ : Shape).Broadcasts ⟨3, ![32, 128, 128]⟩)
    (b : Fin 32) (r : Fin 128) (d : Fin 128) : broadcastTo ⟨3, ![32, 128, 128]⟩ v h (ix3 b r d) = v (ix3 0 0 d) := by
  refine broadcastTo_apply v h _ _ fun a => ?_
  match a with
  | ⟨0, _⟩ => show (0 : Nat) = if (1 : Nat) = 1 then 0 else b.val; rw [if_pos rfl]
  | ⟨1, _⟩ => show (0 : Nat) = if (1 : Nat) = 1 then 0 else r.val; rw [if_pos rfl]
  | ⟨2, _⟩ => show d.val = if (128 : Nat) = 1 then 0 else d.val; rw [if_neg (by decide)]

/-- A bias row repeated down the 4096 rows. -/
theorem bcast_1x128_4096x128 (v : (⟨2, ![1, 128]⟩ : Shape).Idx → α) (h : (⟨2, ![1, 128]⟩ : Shape).Broadcasts ⟨2, ![4096, 128]⟩)
    (n : Fin 4096) (e : Fin 128) : broadcastTo ⟨2, ![4096, 128]⟩ v h (ix2 n e) = v (ix2 0 e) := by
  refine broadcastTo_apply v h _ _ fun a => ?_
  match a with
  | ⟨0, _⟩ => show (0 : Nat) = if (1 : Nat) = 1 then 0 else n.val; rw [if_pos rfl]
  | ⟨1, _⟩ => show e.val = if (128 : Nat) = 1 then 0 else e.val; rw [if_neg (by decide)]

/-- Column 0 of a [4096, 128] matrix, as a [4096, 1] slice. -/
theorem slice_col0 (v : (⟨2, ![4096, 128]⟩ : Shape).Idx → α) (h : (⟨2, ![4096, 128]⟩ : Shape).Slices ![0, 0] ⟨2, ![4096, 1]⟩)
    (n : Fin 4096) (z : Fin 1) : extractStridedSlice ⟨2, ![4096, 1]⟩ ![0, 0] v h (ix2 n z) = v (ix2 n 0) := by
  refine extractStridedSlice_apply _ v h _ _ fun a => ?_
  match a with
  | ⟨0, _⟩ => show n.val = 0 + n.val; omega
  | ⟨1, _⟩ => show 0 = 0 + z.val; have := z.isLt; omega

end Cert.LibLayout
-- ==== Proof.LibCount.lean ====
/-
  Counting with one-bit words. A comparison of two words is a one-bit word; widened to 32 bits and read as a
  signed integer it is 0 or 1. So a sum of such readings over a finite index set is the NUMBER of indices at which the
  comparison holds, and so is the signed reading of their sum as 32-bit words, as long as the count stays below 2^31.
  These are the two ways a program counts the occurrences of a word in a row: adding real 0/1 indicators, or adding
  the 0/1 words and converting the total once.
-/
import Idealize.ShloMosaic.PureOps.Ideal
import Idealize.ShloMosaic.Lib.IndicatorCount
import Idealize.ShloMosaic.Lib.ValueIdx

namespace Cert.LibCount

open Idealize.ShloMosaic

/-- The coercion of reals into the extended reals commutes with finite sums. -/
theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A one-bit word widened to 32 bits, read as a signed integer, is 1 when the bit is set and 0 otherwise. -/
theorem bit_toInt (b : BitVec 1) : (((b.setWidth 32).toInt : ℤ) : ℝ) = if b = 1#1 then 1 else 0 := by
  rcases BitVec.eq_zero_or_eq_one b with h | h <;> subst h <;> simp

/-- The sum of the 0/1 readings of a family of one-bit words is the number of set bits. -/
theorem sum_bits {ι : Type} [Fintype ι] (p : ι → BitVec 1) :
    ∑ k, (((((p k).setWidth 32).toInt : ℤ) : ℝ) : EReal) = (((Finset.univ.filter fun k => p k = 1#1).card : ℝ) : EReal) := by
  classical
  simp only [bit_toInt]
  rw [← coe_sum, Finset.sum_boole]

/-- A count below 2^31, as a 32-bit word read signed, is the count. -/
theorem toInt_ofNat_small (n : ℕ) (h : n < 2 ^ 31) : (BitVec.ofNat 32 n).toInt = (n : ℤ) := by
  have hn : (BitVec.ofNat 32 n).toNat = n := by
    rw [BitVec.toNat_ofNat]; exact Nat.mod_eq_of_lt (by omega)
  rw [BitVec.toInt_eq_toNat_cond, hn]
  split <;> omega

/-- The signed reading of the 32-bit sum of a family of widened one-bit words is the number of set bits, when the
    family has fewer than 2^31 members. -/
theorem fold_bits {ι : Type} (p : ι → BitVec 1) (S : Finset ι) (h : S.card < 2 ^ 31) :
    ((((S.fold IntOp.addi (0#32) fun k => (p k).setWidth 32).toInt : ℤ) : ℝ) : EReal)
      = (((S.filter fun k => p k = 1#1).card : ℝ) : EReal) := by
  classical
  rw [IndicatorCount.fold_addi_setWidth_eq_card,
    toInt_ofNat_small _ (lt_of_le_of_lt (Finset.card_filter_le _ _) h)]
  norm_cast

/-- The equality comparison of two words is the set bit exactly when the words are equal. -/
theorem cmpi_eq_one_iff {w : ℕ} (x y : BitVec w) : IntOp.cmpi .eq x y = 1#1 ↔ x = y := by
  unfold IntOp.cmpi
  by_cases h : x = y
  · simp [h]
  · have e : (x == y) = false := by simpa using h
    simp only [e]
    exact ⟨fun h' => absurd h' (by decide), fun h' => absurd h' h⟩

/-- The inequality comparison of two words is the set bit exactly when the words differ. -/
theorem cmpi_ne_one_iff {w : ℕ} (x y : BitVec w) : IntOp.cmpi .ne x y = 1#1 ↔ x ≠ y := by
  unfold IntOp.cmpi
  by_cases h : x = y
  · simp [h]
  · have e : (x != y) = true := by simpa using h
    simp only [e]
    exact ⟨fun _ => h, fun _ => by decide⟩

end Cert.LibCount
-- ==== Proof.Spec.lean ====
/-
  The function both programs compute, one output element at a time, on the extended reals.

  For a word `q` (a node id at one position of a batch row) and the two id rows `rowA`, `rowB` of that batch row:
  the APPEARANCE of `q` in a row is the number of positions of the row holding `q`, except that the padding id 0 appears
  zero times by decree. Each appearance `x` goes through the first linear layer and the rectifier, channel by channel
  (`max (x * w1 d + b1 d) 0`), and the second linear layer sums the channels against a column of `W2` and adds the bias.
  The feature is the sum of the two results, one per row.

  The kernel adds the two rectified vectors BEFORE the second layer and adds the bias twice at the end; the reference
  applies the second layer to each and adds the two results. The two agree because the rectified values are
  nonnegative: on the extended reals `(a + b) * c = a * c + b * c` holds for nonnegative `a`, `b` and any `c`, the
  infinities included, so no finiteness of the weights is needed.
-/
import Idealize.ShloMosaic.PureOps.Ideal
import Idealize.ShloMosaic.Lib.ValueIdx

noncomputable section

namespace Cert.Spec

/-- How many positions of `row` hold the word `q`. -/
def cntRow (q : BitVec 32) (row : Fin 512 → BitVec 32) : EReal :=
  (((Finset.univ.filter fun k : Fin 512 => q = row k).card : ℝ) : EReal)

/-- The appearance count with the padding id masked: id 0 counts as absent. -/
def appRow (q : BitVec 32) (row : Fin 512 → BitVec 32) : EReal :=
  if q = 0#32 then 0 else cntRow q row

/-- One hidden channel: the first linear layer followed by the rectifier. -/
def hid (x w c : EReal) : EReal := max (x * w + c) 0

theorem hid_nonneg (x w c : EReal) : 0 ≤ hid x w c := le_max_right _ _

/-- One element of the feature: both appearance counts through the two layers, the second layer applied to the SUM of
    the rectified vectors and the bias added twice. -/
def featElt (q : BitVec 32) (rowA rowB : Fin 512 → BitVec 32) (w1 b1 w2col : Fin 128 → EReal) (b2e : EReal) : EReal :=
  (∑ d : Fin 128, (hid (appRow q rowA) (w1 d) (b1 d) + hid (appRow q rowB) (w1 d) (b1 d)) * w2col d) + (b2e + b2e)

/-- The element function depends only on the values it reads. -/
theorem featElt_congr {q q' : BitVec 32} {rowA rowA' rowB rowB' : Fin 512 → BitVec 32} {w1 w1' b1 b1' w2 w2' : Fin 128 → EReal}
    {c c' : EReal} (hq : q = q') (hA : ∀ k, rowA k = rowA' k) (hB : ∀ k, rowB k = rowB' k) (hw1 : ∀ d, w1 d = w1' d)
    (hb1 : ∀ d, b1 d = b1' d) (hw2 : ∀ d, w2 d = w2' d) (hc : c = c') :
    featElt q rowA rowB w1 b1 w2 c = featElt q' rowA' rowB' w1' b1' w2' c' := by
  obtain rfl := hq; obtain rfl := hc
  obtain rfl : rowA = rowA' := funext hA
  obtain rfl : rowB = rowB' := funext hB
  obtain rfl : w1 = w1' := funext hw1
  obtain rfl : b1 = b1' := funext hb1
  obtain rfl : w2 = w2' := funext hw2
  rfl

/-- A whole feature array: at (batch row `p`, position `l`, channel `e`) the element function at the word of `aq` at
    (p, l), the two id rows `p` of `a0` and `a1`, and column `e` of the second layer. -/
def featArr (aq a0 a1 : (⟨2, ![256, 512]⟩ : Idealize.ShloMosaic.Shape).Idx → BitVec 32)
    (w1 : (⟨2, ![1, 128]⟩ : Idealize.ShloMosaic.Shape).Idx → EReal) (b1 : (⟨1, ![128]⟩ : Idealize.ShloMosaic.Shape).Idx → EReal)
    (w2 : (⟨2, ![128, 128]⟩ : Idealize.ShloMosaic.Shape).Idx → EReal) (b2 : (⟨1, ![128]⟩ : Idealize.ShloMosaic.Shape).Idx → EReal) :
    (⟨3, ![256, 512, 128]⟩ : Idealize.ShloMosaic.Shape).Idx → EReal := fun i =>
  featElt (aq (Idealize.ShloMosaic.ValueIdx.ix2 (i 0) (i 1))) (fun k => a0 (Idealize.ShloMosaic.ValueIdx.ix2 (i 0) k))
    (fun k => a1 (Idealize.ShloMosaic.ValueIdx.ix2 (i 0) k)) (fun d => w1 (Idealize.ShloMosaic.ValueIdx.ix2 0 d))
    (fun d => b1 (Idealize.ShloMosaic.ValueIdx.ix1 d)) (fun d => w2 (Idealize.ShloMosaic.ValueIdx.ix2 d (i 2)))
    (b2 (Idealize.ShloMosaic.ValueIdx.ix1 (i 2)))

/-- The second layer applied to a sum of two nonnegative vectors, plus twice the bias, is the sum of the second layer
    applied to each plus the bias: distributivity over nonnegative summands, then a regrouping of the sum. -/
theorem layer_of_sum {n : ℕ} (h0 h1 w : Fin n → EReal) (c : EReal) (n0 : ∀ d, 0 ≤ h0 d) (n1 : ∀ d, 0 ≤ h1 d) :
    (∑ d, (h0 d + h1 d) * w d) + (c + c) = ((∑ d, h0 d * w d) + c) + ((∑ d, h1 d * w d) + c) := by
  have e : ∀ d, (h0 d + h1 d) * w d = h0 d * w d + h1 d * w d := fun d =>
    EReal.right_distrib_of_nonneg (n0 d) (n1 d)
  simp only [e]
  rw [Finset.sum_add_distrib, add_add_add_comm]

end Cert.Spec

end
-- ==== Proof.KPay.lean ====
/-
  The kernel body's arithmetic read at one element of an output block, on the extended reals.

  Row `n = 128 * b + r` of the 0/1 equality matrix compares the query word at (batch row `b`, query position `r`) with
  the 512 key words of batch row `b`; its product with the all-ones matrix, read in column 0, is therefore the number
  of key positions holding the query word. The padding mask is 0 or 1, so mask times count is the masked appearance.
  The rest of the body is the two layers, channel by channel; reading it at (b, r, e) gives the element function of
  the specification at the query word, the two key rows of batch row `b`, and column `e` of the second layer.
-/
import proofs.«139890_j1889785610786_2_alg».proof.Proof.KPiece
import proofs.«139890_j1889785610786_2_alg».proof.Proof.KMatmul
import proofs.«139890_j1889785610786_2_alg».proof.Proof.LibLayout
import proofs.«139890_j1889785610786_2_alg».proof.Proof.LibCount
import proofs.«139890_j1889785610786_2_alg».proof.Proof.Spec
import Idealize.ShloMosaic.Lib.ValueIdx
import Idealize.ShloMosaic.PureOps.Ideal.Laws

set_option maxRecDepth 16384

noncomputable section

namespace Cert.KernelIdeal.Pay

open Cert.KernelIdeal Cert.KernelIdeal.Gen Cert.KernelIdeal.Piece Cert.LibLayout Idealize.ShloMosaic Idealize.ShloMosaic.ValueIdx

theorem cmpi_at {s : Shape} {w : Nat} (p : CmpIPredicate) (x y : IVec s w) (i : s.Idx) :
    cmpi p x y i = IntOp.cmpi p (x i) (y i) := rfl

/-- A signed integer converts to the real it denotes. -/
theorem sitofp_ideal {w : Nat} (b : BitVec w) : (FloatOps.sitofp (F := Ideal) .f32 b) = (((b.toInt : ℤ) : ℝ) : EReal) := rfl

/-- The word of `+0.0` denotes zero. -/
theorem zero_f32 : (Scalar.ofBits (F := Ideal) .f32 0x00000000#32) = (0 : EReal) := Ideal.ofBits_zero_f32

/-- A 0/1 mask times a count is the count where the mask is set and zero elsewhere. -/
theorem mask_mul (w : BitVec 32) (c : EReal) : (if w = 0#32 then (0 : EReal) else 1) * c = if w = 0#32 then 0 else c := by
  split <;> simp

theorem pay3_eq (x2 : Vec Ideal S512x128 .bf16) : k0_pay3 (F := Ideal) x2 = x2 := by
  unfold k0_pay3; exact shapeCast_self _ _

theorem pay5_eq (x5 : Vec Ideal S128x128 .bf16) : k0_pay5 (F := Ideal) x5 = x5 := by
  unfold k0_pay5; exact shapeCast_self _ _

theorem pay4_apply (x3 : Vec Ideal S1x128 .f32) (d : Fin 128) : k0_pay4 (F := Ideal) x3 (ix1 d) = x3 (ix2 0 d) := by
  unfold k0_pay4; exact cast_1x128_128 _ _ d

theorem pay6_apply (x6 : Vec Ideal S128 .f32) (e : Fin 128) : k0_pay6 (F := Ideal) x6 (ix1 e) = x6 (ix1 e) + x6 (ix1 e) := rfl

/-- The count of the query word among the keys, through the product with the all-ones matrix. -/
theorem pay7_apply (x : Vec Ideal S32x512 .i32) (q : Vec Ideal S32x128 .i32) (ones : Vec Ideal S512x128 .bf16)
    (hones : ∀ k : Fin 512, ones (ix2 k 0) = 1) (b : Fin 32) (r : Fin 128) :
    k0_pay7 (F := Ideal) x q ones (ix2 b r) = Spec.cntRow (q (ix2 b r)) (fun k => x (ix2 b k)) := by
  unfold k0_pay7 k0_pay3
  try dsimp only
  rw [cast_4096_32x128, cast_4096x1_4096, slice_col0, Matmul.count_apply]
  simp only [shapeCast_self, hones, mul_one, cast_32x128x512_4096x512, truncf_apply, sitofp_apply, extui_apply, cmpi_at,
    bcast_32x128x1_32x128x512, cast_32x128_32x128x1, bcast_32x1x512_32x128x512, cast_32x512_32x1x512, sitofp_ideal]
  rw [LibCount.sum_bits]
  unfold Spec.cntRow
  simp only [LibCount.cmpi_eq_one_iff]

/-- The same count, still as column 0 of the flattened product. -/
theorem pay8_apply (x : Vec Ideal S32x512 .i32) (q : Vec Ideal S32x128 .i32) (ones : Vec Ideal S512x128 .bf16)
    (hones : ∀ k : Fin 512, ones (ix2 k 0) = 1) (b : Fin 32) (r : Fin 128) :
    k0_pay8 (F := Ideal) x q ones (ix2 (row b r) 0) = Spec.cntRow (q (ix2 b r)) (fun k => x (ix2 b k)) := by
  unfold k0_pay8 k0_pay3
  try dsimp only
  rw [slice_col0, Matmul.count_apply]
  simp only [shapeCast_self, hones, mul_one, cast_32x128x512_4096x512, truncf_apply, sitofp_apply, extui_apply, cmpi_at,
    bcast_32x128x1_32x128x512, cast_32x128_32x128x1, bcast_32x1x512_32x128x512, cast_32x512_32x1x512, sitofp_ideal]
  rw [LibCount.sum_bits]
  unfold Spec.cntRow
  simp only [LibCount.cmpi_eq_one_iff]

/-- The padding mask of the source queries: 0 at id 0, else 1. -/
theorem pay9_apply (q : Vec Ideal S32x128 .i32) (b : Fin 32) (r : Fin 128) :
    k0_pay9 (F := Ideal) q (ix2 b r) = if q (ix2 b r) = 0#32 then 0 else 1 := by
  unfold k0_pay9
  try dsimp only
  simp only [sitofp_apply, extui_apply, cmpi_at, broadcast_apply, sitofp_ideal]
  rw [LibCount.bit_toInt]
  simp only [LibCount.cmpi_ne_one_iff]
  by_cases h : q (ix2 b r) = 0#32 <;> simp [h]

/-- The padding mask of the destination queries. -/
theorem pay10_apply (q : Vec Ideal S32x128 .i32) (b : Fin 32) (r : Fin 128) :
    k0_pay10 (F := Ideal) q (ix2 b r) = if q (ix2 b r) = 0#32 then 0 else 1 := by
  unfold k0_pay10
  try dsimp only
  simp only [sitofp_apply, extui_apply, cmpi_at, broadcast_apply, sitofp_ideal]
  rw [LibCount.bit_toInt]
  simp only [LibCount.cmpi_ne_one_iff]
  by_cases h : q (ix2 b r) = 0#32 <;> simp [h]

/-- A masked count of the destination queries among the source keys. -/
theorem pay11_apply (x : Vec Ideal S32x512 .i32) (q : Vec Ideal S32x128 .i32) (ones : FVec Ideal S512x128 .bf16)
    (hones : ∀ k : Fin 512, ones (ix2 k 0) = 1) (b : Fin 32) (r : Fin 128) :
    k0_pay11 (F := Ideal) x q ones (ix2 b r) = Spec.appRow (q (ix2 b r)) (fun k => x (ix2 b k)) := by
  unfold k0_pay11
  try dsimp only
  rw [mulf_apply, pay10_apply, cast_4096_32x128, cast_4096x1_4096, slice_col0, Matmul.count_apply, mask_mul]
  unfold Spec.appRow
  congr 1
  simp only [shapeCast_self, hones, mul_one, cast_32x128x512_4096x512, truncf_apply, sitofp_apply, extui_apply, cmpi_at,
    bcast_32x128x1_32x128x512, cast_32x128_32x128x1, bcast_32x1x512_32x128x512, cast_32x512_32x1x512, sitofp_ideal]
  rw [LibCount.sum_bits]
  unfold Spec.cntRow
  simp only [LibCount.cmpi_eq_one_iff]

/-- A masked count of the destination queries among the destination keys. -/
theorem pay12_apply (x : Vec Ideal S32x512 .i32) (q : Vec Ideal S32x128 .i32) (ones : FVec Ideal S512x128 .bf16)
    (hones : ∀ k : Fin 512, ones (ix2 k 0) = 1) (b : Fin 32) (r : Fin 128) :
    k0_pay12 (F := Ideal) x q ones (ix2 b r) = Spec.appRow (q (ix2 b r)) (fun k => x (ix2 b k)) := by
  unfold k0_pay12
  try dsimp only
  rw [mulf_apply, pay10_apply, cast_4096_32x128, cast_4096x1_4096, slice_col0, Matmul.count_apply, mask_mul]
  unfold Spec.appRow
  congr 1
  simp only [shapeCast_self, hones, mul_one, cast_32x128x512_4096x512, truncf_apply, sitofp_apply, extui_apply, cmpi_at,
    bcast_32x128x1_32x128x512, cast_32x128_32x128x1, bcast_32x1x512_32x128x512, cast_32x512_32x1x512, sitofp_ideal]
  rw [LibCount.sum_bits]
  unfold Spec.cntRow
  simp only [LibCount.cmpi_eq_one_iff]

/-- One rectified hidden channel of the first appearance. -/
theorem pay13_apply (q : Vec Ideal S32x128 .i32) (v11 : FVec Ideal S128 .f32) (v12 : Vec Ideal S128 .f32)
    (v29 : FVec Ideal S32x128 .f32) (b : Fin 32) (r : Fin 128) (d : Fin 128) :
    k0_pay13 (F := Ideal) q v11 v12 v29 (ix3 b r d)
      = Spec.hid ((if q (ix2 b r) = 0#32 then 0 else 1) * v29 (ix2 b r)) (v11 (ix1 d)) (v12 (ix1 d)) := by
  unfold k0_pay13
  try dsimp only
  simp only [maximumf_apply, addf_apply, mulf_apply, broadcast_apply, bcast_32x128x1_32x128x128, cast_32x128_32x128x1,
    bcast_1x1x128_32x128x128, cast_128_1x1x128, pay9_apply, zero_f32]
  rfl

/-- The first layer's product for the second appearance, before bias and rectifier. -/
theorem pay14_apply (q : Vec Ideal S32x128 .i32) (v11 : FVec Ideal S128 .f32) (v40 : FVec Ideal S4096x1 .f32)
    (b : Fin 32) (r : Fin 128) (d : Fin 128) :
    k0_pay14 (F := Ideal) q v11 v40 (ix3 b r d)
      = ((if q (ix2 b r) = 0#32 then 0 else 1) * v40 (ix2 (row b r) 0)) * v11 (ix1 d) := by
  unfold k0_pay14
  try dsimp only
  simp only [mulf_apply, bcast_32x128x1_32x128x128, cast_32x128_32x128x1, bcast_1x1x128_32x128x128, cast_128_1x1x128,
    cast_4096_32x128, cast_4096x1_4096, pay9_apply]

/-- The second layer on the sum of the two rectified vectors, plus the doubled bias: the first output's store. -/
theorem pay1_apply (v12 : Vec Ideal S128 .f32) (v14 : FVec Ideal S128x128 .bf16) (v16 : FVec Ideal S128 .f32)
    (v90 v95 : FVec Ideal S32x128x128 .f32) (b : Fin 32) (r : Fin 128) (e : Fin 128) :
    k0_pay1 (F := Ideal) v12 v14 v16 v90 v95 (ix3 b r e)
      = (∑ d : Fin 128, (v90 (ix3 b r d) + max (v95 (ix3 b r d) + v12 (ix1 d)) 0) * v14 (ix2 d e)) + v16 (ix1 e) := by
  unfold k0_pay1
  try dsimp only
  rw [cast_4096x128_32x128x128, addf_apply, Matmul.layer_apply]
  simp only [truncf_apply, cast_32x128x128_4096x128, addf_apply, maximumf_apply, broadcast_apply, bcast_1x1x128_32x128x128,
    cast_128_1x1x128, bcast_1x128_4096x128, cast_128_1x128, zero_f32]

/-- The same for the second output's store, from the two masked appearances. -/
theorem pay2_apply (v11 : FVec Ideal S128 .f32) (v12 : Vec Ideal S128 .f32) (v14 : FVec Ideal S128x128 .bf16)
    (v16 : FVec Ideal S128 .f32) (v79 v80 : FVec Ideal S32x128 .f32) (b : Fin 32) (r : Fin 128) (e : Fin 128) :
    k0_pay2 (F := Ideal) v11 v12 v14 v16 v79 v80 (ix3 b r e)
      = (∑ d : Fin 128, (Spec.hid (v79 (ix2 b r)) (v11 (ix1 d)) (v12 (ix1 d)) + Spec.hid (v80 (ix2 b r)) (v11 (ix1 d)) (v12 (ix1 d)))
          * v14 (ix2 d e)) + v16 (ix1 e) := by
  unfold k0_pay2
  try dsimp only
  rw [cast_4096x128_32x128x128, addf_apply, Matmul.layer_apply]
  simp only [truncf_apply, cast_32x128x128_4096x128, addf_apply, maximumf_apply, mulf_apply, broadcast_apply,
    bcast_32x128x1_32x128x128, cast_32x128_32x128x1, bcast_1x1x128_32x128x128,
    cast_128_1x1x128, bcast_1x128_4096x128, cast_128_1x128, zero_f32]
  rfl

/-- THE FIRST OUTPUT BLOCK at (b, r, e): the feature of the source query word at (b, r) against the source and destination
    key rows of batch row `b`. -/
theorem body7_apply (i : grid0.Coords) (x0 x1 : Vec Ideal S32x512 .i32) (x2 : Vec Ideal S512x128 .bf16) (x3 : Vec Ideal S1x128 .f32)
    (x4 : Vec Ideal S128 .f32) (x5 : Vec Ideal S128x128 .bf16) (x6 : Vec Ideal S128 .f32)
    (hones : ∀ k : Fin 512, x2 (ix2 k 0) = 1) (b : Fin 32) (r : Fin 128) (e : Fin 128) :
    body7 (F := Ideal) i x0 x1 x2 x3 x4 x5 x6 (ix3 b r e)
      = Spec.featElt (qcols i x0 (ix2 b r)) (fun k => x0 (ix2 b k)) (fun k => x1 (ix2 b k))
          (fun d => x3 (ix2 0 d)) (fun d => x4 (ix1 d)) (fun d => x5 (ix2 d e)) (x6 (ix1 e)) := by
  unfold body7
  rw [pay1_apply]
  simp only [pay13_apply, pay14_apply, pay7_apply _ _ _ hones, pay8_apply _ _ _ hones, pay4_apply, pay5_eq, pay6_apply, mask_mul]
  rfl

/-- THE SECOND OUTPUT BLOCK at (b, r, e): the feature of the destination query word at (b, r) against the same two rows. -/
theorem body8_apply (i : grid0.Coords) (x0 x1 : Vec Ideal S32x512 .i32) (x2 : Vec Ideal S512x128 .bf16) (x3 : Vec Ideal S1x128 .f32)
    (x4 : Vec Ideal S128 .f32) (x5 : Vec Ideal S128x128 .bf16) (x6 : Vec Ideal S128 .f32)
    (hones : ∀ k : Fin 512, x2 (ix2 k 0) = 1) (b : Fin 32) (r : Fin 128) (e : Fin 128) :
    body8 (F := Ideal) i x0 x1 x2 x3 x4 x5 x6 (ix3 b r e)
      = Spec.featElt (qcols i x1 (ix2 b r)) (fun k => x0 (ix2 b k)) (fun k => x1 (ix2 b k))
          (fun d => x3 (ix2 0 d)) (fun d => x4 (ix1 d)) (fun d => x5 (ix2 d e)) (x6 (ix1 e)) := by
  have hones' : ∀ k : Fin 512, k0_pay3 (F := Ideal) x2 (ix2 k 0) = 1 := fun k => by rw [pay3_eq]; exact hones k
  unfold body8
  rw [pay2_apply]
  simp only [pay11_apply _ _ _ hones', pay12_apply _ _ _ hones', pay4_apply, pay5_eq, pay6_apply]
  rfl

end Cert.KernelIdeal.Pay

end
-- ==== Proof.KBlocks.lean ====
/-
  From blocks to arrays. Grid point (bi, qi) writes back, to each output array, the block of 32 batch rows from
  `32 * bi` and 128 positions from `128 * qi` (all 128 channels). The id blocks it loads are the same 32 batch rows, all
  512 positions, and its query columns are positions `128 * qi` onward of those: so the element the body computes at
  (b, r, e) of the block is the feature at (32 * bi + b, 128 * qi + r, e) of the whole arrays. The 32 blocks tile each
  output array, so after the run each output array IS the feature array of the arguments. The all-ones matrix and the
  narrowed second-layer matrix are written by the host before the region: a broadcast of the word of 1.0, and a format
  change, which is the identity on exact values.
-/
import proofs.«139890_j1889785610786_2_alg».proof.Proof.Gen.KernelIdeal.Value
import proofs.«139890_j1889785610786_2_alg».proof.Proof.KPay
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Blocks

open Cert.KernelIdeal Cert.KernelIdeal.Gen Cert.KernelIdeal.Piece Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The bf16 word 0x3F80 denotes 1. -/
theorem one_bf16 : Ideal.ofBits .bf16 0x3F80#16 = 1 := by
  simp [Ideal.ofBits, Ideal.ieee]
  rw [← EReal.coe_mul]; norm_num

/-- The region finds the all-ones matrix: the host's broadcast of the constant 1.0. -/
theorem V_ones (c : Dev nD) : (V m c main_v0 : S512x128.Idx → EReal)
    = broadcastInDim S512x128 ![] bcast_S_S512x128 (constant (F := Ideal) S_ .bf16 0x3F80#16) := by
  dsimp only [Gen.V, Gen.hostOps0]; after_results

/-- The region finds the second-layer matrix narrowed by the host: on exact values, the matrix itself. -/
theorem V_w2 (c : Dev nD) : (V m c main_v1 : S128x128.Idx → EReal) = m ((c : Thread nD τ).loc main_arg4) := by
  have h : (V m c main_v1 : S128x128.Idx → EReal)
      = (truncf .bf16 (show FVec Ideal S128x128 .f32 from m ((c : Thread nD τ).loc main_arg4)) bitsLt_bf16_f32 : FVec Ideal S128x128 .bf16) := by
    dsimp only [Gen.V, Gen.hostOps0]; after_results
  exact h

/-- The printed index maps, decided over the 32 grid points: the id windows move with the output's batch block and take
    all positions, the other inputs stay at block 0, both outputs share one index map, and the query columns start at
    128 times the output's position block. -/
theorem idx_facts : ∀ t : Fin cfg0.N,
    win0_0.index t (0 : Fin 2) = win0_7.index t (0 : Fin 3) ∧ win0_0.index t (1 : Fin 2) = 0
    ∧ win0_1.index t (0 : Fin 2) = win0_7.index t (0 : Fin 3) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (2 : Fin 3) = 0
    ∧ win0_8.index t = win0_7.index t
    ∧ k0_off1 (grid0.coords t) (0 : Fin 2) = 0 ∧ k0_off1 (grid0.coords t) (1 : Fin 2) = win0_7.index t (1 : Fin 3) * 128 :=
  (by decide +kernel : ∀ t : Fin grid0.N, _)

/-- Every (batch block, position block) pair is some grid point's. -/
theorem idx_onto : ∀ (q0 : Fin 8) (q1 : Fin 4), ∃ t : Fin cfg0.N, win0_7.index t = ![q0.val, q1.val, 0] :=
  (by decide +kernel : ∀ (q0 : Fin 8) (q1 : Fin 4), ∃ t : Fin grid0.N, win0_7.index t = ![q0.val, q1.val, 0])

/-- Column 0 of the all-ones block is 1 at every grid point. -/
theorem ones_blk (c : Dev nD) (t : Fin cfg0.N) (k : Fin 512) : @Eq EReal (iblk m c 2 t (ix2 k 0)) 1 :=
  (congrFun (V_ones m c) (((cfg0.win 2).blk t).view.emb (ix2 k 0))).trans one_bf16

/-- The source features as a whole array, of the arrays the region finds. -/
def srcV (c : Dev nD) : S256x512x128.Idx → EReal :=
  Spec.featArr (V m c main_arg0) (V m c main_arg0) (V m c main_arg1) (V m c main_arg2) (V m c main_arg3) (V m c main_v1) (V m c main_arg5)

/-- The destination features as a whole array, of the arrays the region finds. -/
def dstV (c : Dev nD) : S256x512x128.Idx → EReal :=
  Spec.featArr (V m c main_arg1) (V m c main_arg0) (V m c main_arg1) (V m c main_arg2) (V m c main_arg3) (V m c main_v1) (V m c main_arg5)

/-- WHAT POINT `t` WRITES BACK to the first output is block `t` of the source feature array. -/
theorem flushed7_eq (c : Dev nD) (t : Fin cfg0.N) :
    (dats m 0 c).flushed 7 t = ((cfg0.win 7).blk t).view.read (Elt Ideal) (srcV m c) := by
  rw [Value.flushed7_A, Piece.out7_eq]
  obtain ⟨e00, e01, e10, e11, e20, e21, e30, e31, e40, e50, e51, e60, e72, e8, ek0, ek1⟩ := idx_facts t
  funext j
  obtain ⟨b, r, e, rfl⟩ : ∃ (b : Fin 32) (r : Fin 128) (e : Fin 128), j = ix3 b r e := ⟨j 0, j 1, j 2, eq_ix3 j⟩
  show body7 (grid0.coords t) (iblk m c 0 t) (iblk m c 1 t) (iblk m c 2 t) (iblk m c 3 t) (iblk m c 4 t) (iblk m c 5 t) (iblk m c 6 t) (ix3 b r e)
    = srcV m c (((cfg0.win 7).blk t).view.emb (ix3 b r e))
  refine (Pay.body7_apply (grid0.coords t) (iblk m c 0 t) (iblk m c 1 t) (iblk m c 2 t) (iblk m c 3 t) (iblk m c 4 t) (iblk m c 5 t) (iblk m c 6 t)
    (ones_blk m c t) b r e).trans ?_
  unfold srcV Spec.featArr
  refine Spec.featElt_congr ?_ (fun k => ?_) (fun k => ?_) (fun d => ?_) (fun d => ?_) (fun d => ?_) ?_
  · show (V m c main_arg0 : _ → _) (((cfg0.win 0).blk t).view.emb ((Rect.unit (s := S32x512) (k0_off1 (grid0.coords t)) S32x128.size (k0_off1_inb (grid0.coords t))).idx (ix2 b r))) = (V m c main_arg0 : _ → _) (ix2 ((((cfg0.win 7).blk t).view.emb (ix3 b r e)) 0) ((((cfg0.win 7).blk t).view.emb (ix3 b r e)) 1))
    refine congrArg _ (funext fun a => Fin.ext ?_)
    match a with
    | ⟨0, _⟩ => show win0_0.index t (0 : Fin 2) * 32 + 1 * (k0_off1 (grid0.coords t) (0 : Fin 2) + 1 * b.val) = win0_7.index t (0 : Fin 3) * 32 + 1 * b.val; omega
    | ⟨1, _⟩ => show win0_0.index t (1 : Fin 2) * 512 + 1 * (k0_off1 (grid0.coords t) (1 : Fin 2) + 1 * r.val) = win0_7.index t (1 : Fin 3) * 128 + 1 * r.val; omega
  · show (V m c main_arg0 : _ → _) (((cfg0.win 0).blk t).view.emb (ix2 b k)) = (V m c main_arg0 : _ → _) (ix2 ((((cfg0.win 7).blk t).view.emb (ix3 b r e)) 0) k)
    refine congrArg _ (funext fun a => Fin.ext ?_)
    match a with
    | ⟨0, _⟩ => show win0_0.index t (0 : Fin 2) * 32 + 1 * b.val = win0_7.index t (0 : Fin 3) * 32 + 1 * b.val; omega
    | ⟨1, _⟩ => show win0_0.index t (1 : Fin 2) * 512 + 1 * k.val = k.val; omega
  · show (V m c main_arg1 : _ → _) (((cfg0.win 1).blk t).view.emb (ix2 b k)) = (V m c main_arg1 : _ → _) (ix2 ((((cfg0.win 7).blk t).view.emb (ix3 b r e)) 0) k)
    refine congrArg _ (funext fun a => Fin.ext ?_)
    match a with
    | ⟨0, _⟩ => show win0_1.index t (0 : Fin 2) * 32 + 1 * b.val = win0_7.index t (0 : Fin 3) * 32 + 1 * b.val; omega
    | ⟨1, _⟩ => show win0_1.index t (1 : Fin 2) * 512 + 1 * k.val = k.val; omega
  · show (V m c main_arg2 : _ → _) (((cfg0.win 3).blk t).view.emb (ix2 0 d)) = (V m c main_arg2 : _ → _) (ix2 0 d)
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * d.val = d.val; omega
  · show (V m c main_arg3 : _ → _) (((cfg0.win 4).blk t).view.emb (ix1 d)) = (V m c main_arg3 : _ → _) (ix1 d)
    refine congrArg _ (funext fun a => Fin.ext ?_)
    match a with
    | ⟨0, _⟩ => show win0_4.index t (0 : Fin 1) * 128 + 1 * d.val = d.val; omega
  · show (V m c main_v1 : _ → _) (((cfg0.win 5).blk t).view.emb (ix2 d e)) = (V m c main_v1 : _ → _) (ix2 d ((((cfg0.win 7).blk t).view.emb (ix3 b r e)) 2))
    refine congrArg _ (funext fun a => Fin.ext ?_)
    match a with
    | ⟨0, _⟩ => show win0_5.index t (0 : Fin 2) * 128 + 1 * d.val = d.val; omega
    | ⟨1, _⟩ => show win0_5.index t (1 : Fin 2) * 128 + 1 * e.val = win0_7.index t (2 : Fin 3) * 128 + 1 * e.val; omega
  · show (V m c main_arg5 : _ → _) (((cfg0.win 6).blk t).view.emb (ix1 e)) = (V m c main_arg5 : _ → _) (ix1 ((((cfg0.win 7).blk t).view.emb (ix3 b r e)) 2))
    refine congrArg _ (funext fun a => Fin.ext ?_)
    match a with
    | ⟨0, _⟩ => show win0_6.index t (0 : Fin 1) * 128 + 1 * e.val = win0_7.index t (2 : Fin 3) * 128 + 1 * e.val; omega

/-- WHAT POINT `t` WRITES BACK to the second output is block `t` of the destination feature array. -/
theorem flushed8_eq (c : Dev nD) (t : Fin cfg0.N) :
    (dats m 0 c).flushed 8 t = ((cfg0.win 8).blk t).view.read (Elt Ideal) (dstV m c) := by
  rw [Value.flushed8_A, Piece.out8_eq]
  obtain ⟨e00, e01, e10, e11, e20, e21, e30, e31, e40, e50, e51, e60, e72, e8, ek0, ek1⟩ := idx_facts t
  have e80 : win0_8.index t (0 : Fin 3) = win0_7.index t (0 : Fin 3) := congrFun e8 0
  have e81 : win0_8.index t (1 : Fin 3) = win0_7.index t (1 : Fin 3) := congrFun e8 1
  have e82 : win0_8.index t (2 : Fin 3) = win0_7.index t (2 : Fin 3) := congrFun e8 2
  funext j
  obtain ⟨b, r, e, rfl⟩ : ∃ (b : Fin 32) (r : Fin 128) (e : Fin 128), j = ix3 b r e := ⟨j 0, j 1, j 2, eq_ix3 j⟩
  show body8 (grid0.coords t) (iblk m c 0 t) (iblk m c 1 t) (iblk m c 2 t) (iblk m c 3 t) (iblk m c 4 t) (iblk m c 5 t) (iblk m c 6 t) (ix3 b r e)
    = dstV m c (((cfg0.win 8).blk t).view.emb (ix3 b r e))
  refine (Pay.body8_apply (grid0.coords t) (iblk m c 0 t) (iblk m c 1 t) (iblk m c 2 t) (iblk m c 3 t) (iblk m c 4 t) (iblk m c 5 t) (iblk m c 6 t)
    (ones_blk m c t) b r e).trans ?_
  unfold dstV Spec.featArr
  refine Spec.featElt_congr ?_ (fun k => ?_) (fun k => ?_) (fun d => ?_) (fun d => ?_) (fun d => ?_) ?_
  · show (V m c main_arg1 : _ → _) (((cfg0.win 1).blk t).view.emb ((Rect.unit (s := S32x512) (k0_off1 (grid0.coords t)) S32x128.size (k0_off1_inb (grid0.coords t))).idx (ix2 b r))) = (V m c main_arg1 : _ → _) (ix2 ((((cfg0.win 8).blk t).view.emb (ix3 b r e)) 0) ((((cfg0.win 8).blk t).view.emb (ix3 b r e)) 1))
    refine congrArg _ (funext fun a => Fin.ext ?_)
    match a with
    | ⟨0, _⟩ => show win0_1.index t (0 : Fin 2) * 32 + 1 * (k0_off1 (grid0.coords t) (0 : Fin 2) + 1 * b.val) = win0_8.index t (0 : Fin 3) * 32 + 1 * b.val; omega
    | ⟨1, _⟩ => show win0_1.index t (1 : Fin 2) * 512 + 1 * (k0_off1 (grid0.coords t) (1 : Fin 2) + 1 * r.val) = win0_8.index t (1 : Fin 3) * 128 + 1 * r.val; omega
  · show (V m c main_arg0 : _ → _) (((cfg0.win 0).blk t).view.emb (ix2 b k)) = (V m c main_arg0 : _ → _) (ix2 ((((cfg0.win 8).blk t).view.emb (ix3 b r e)) 0) k)
    refine congrArg _ (funext fun a => Fin.ext ?_)
    match a with
    | ⟨0, _⟩ => show win0_0.index t (0 : Fin 2) * 32 + 1 * b.val = win0_8.index t (0 : Fin 3) * 32 + 1 * b.val; omega
    | ⟨1, _⟩ => show win0_0.index t (1 : Fin 2) * 512 + 1 * k.val = k.val; omega
  · show (V m c main_arg1 : _ → _) (((cfg0.win 1).blk t).view.emb (ix2 b k)) = (V m c main_arg1 : _ → _) (ix2 ((((cfg0.win 8).blk t).view.emb (ix3 b r e)) 0) k)
    refine congrArg _ (funext fun a => Fin.ext ?_)
    match a with
    | ⟨0, _⟩ => show win0_1.index t (0 : Fin 2) * 32 + 1 * b.val = win0_8.index t (0 : Fin 3) * 32 + 1 * b.val; omega
    | ⟨1, _⟩ => show win0_1.index t (1 : Fin 2) * 512 + 1 * k.val = k.val; omega
  · show (V m c main_arg2 : _ → _) (((cfg0.win 3).blk t).view.emb (ix2 0 d)) = (V m c main_arg2 : _ → _) (ix2 0 d)
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * d.val = d.val; omega
  · show (V m c main_arg3 : _ → _) (((cfg0.win 4).blk t).view.emb (ix1 d)) = (V m c main_arg3 : _ → _) (ix1 d)
    refine congrArg _ (funext fun a => Fin.ext ?_)
    match a with
    | ⟨0, _⟩ => show win0_4.index t (0 : Fin 1) * 128 + 1 * d.val = d.val; omega
  · show (V m c main_v1 : _ → _) (((cfg0.win 5).blk t).view.emb (ix2 d e)) = (V m c main_v1 : _ → _) (ix2 d ((((cfg0.win 8).blk t).view.emb (ix3 b r e)) 2))
    refine congrArg _ (funext fun a => Fin.ext ?_)
    match a with
    | ⟨0, _⟩ => show win0_5.index t (0 : Fin 2) * 128 + 1 * d.val = d.val; omega
    | ⟨1, _⟩ => show win0_5.index t (1 : Fin 2) * 128 + 1 * e.val = win0_8.index t (2 : Fin 3) * 128 + 1 * e.val; omega
  · show (V m c main_arg5 : _ → _) (((cfg0.win 6).blk t).view.emb (ix1 e)) = (V m c main_arg5 : _ → _) (ix1 ((((cfg0.win 8).blk t).view.emb (ix3 b r e)) 2))
    refine congrArg _ (funext fun a => Fin.ext ?_)
    match a with
    | ⟨0, _⟩ => show win0_6.index t (0 : Fin 1) * 128 + 1 * e.val = win0_8.index t (2 : Fin 3) * 128 + 1 * e.val; omega

/-- An index of an output array is in point `t`'s block iff each coordinate is in the block's range on its axis. -/
theorem mem_blk7 (t : Fin cfg0.N) (i : S256x512x128.Idx) :
    i ∈ ((cfg0.win 7).blk t).view.set ↔ ∀ a : Fin 3, win0_7.index t a * S32x128x128.size a ≤ (i a).val ∧ (i a).val < win0_7.index t a * S32x128x128.size a + S32x128x128.size a := by
  show i ∈ ((View.whole main_v2_0).slice (win0_7.rect t)).set ↔ _
  rw [View.set_slice_whole, Rect.mem_set_unit]
  exact Iff.rfl

theorem mem_blk8 (t : Fin cfg0.N) (i : S256x512x128.Idx) :
    i ∈ ((cfg0.win 8).blk t).view.set ↔ ∀ a : Fin 3, win0_8.index t a * S32x128x128.size a ≤ (i a).val ∧ (i a).val < win0_8.index t a * S32x128x128.size a + S32x128x128.size a := by
  show i ∈ ((View.whole main_v2_1).slice (win0_8.rect t)).set ↔ _
  rw [View.set_slice_whole, Rect.mem_set_unit]
  exact Iff.rfl

/-- The 32 blocks tile the first output array: index (p, l, e) is in the block of the point with batch block `p / 32` and
    position block `l / 128`. -/
theorem cover7 (i : S256x512x128.Idx) : ∃ t : Fin cfg0.N, (cfg0.win 7).flush t = true ∧ i ∈ ((cfg0.win 7).blk t).view.set := by
  have hi0 : (i 0).val < 256 := (i 0).isLt
  have hi1 : (i 1).val < 512 := (i 1).isLt
  have hi2 : (i 2).val < 128 := (i 2).isLt
  obtain ⟨t, ht⟩ := idx_onto ⟨(i 0).val / 32, by omega⟩ ⟨(i 1).val / 128, by omega⟩
  have q0 : win0_7.index t (0 : Fin 3) = (i 0).val / 32 := congrFun ht 0
  have q1 : win0_7.index t (1 : Fin 3) = (i 1).val / 128 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 32 ≤ (i 0).val ∧ (i 0).val < win0_7.index t (0 : Fin 3) * 32 + 32; omega
  | ⟨1, _⟩ => show win0_7.index t (1 : Fin 3) * 128 ≤ (i 1).val ∧ (i 1).val < win0_7.index t (1 : Fin 3) * 128 + 128; omega
  | ⟨2, _⟩ => show win0_7.index t (2 : Fin 3) * 128 ≤ (i 2).val ∧ (i 2).val < win0_7.index t (2 : Fin 3) * 128 + 128; omega

/-- The same for the second output array, whose index map is the first's. -/
theorem cover8 (i : S256x512x128.Idx) : ∃ t : Fin cfg0.N, (cfg0.win 8).flush t = true ∧ i ∈ ((cfg0.win 8).blk t).view.set := by
  have hi0 : (i 0).val < 256 := (i 0).isLt
  have hi1 : (i 1).val < 512 := (i 1).isLt
  have hi2 : (i 2).val < 128 := (i 2).isLt
  obtain ⟨t, ht⟩ := idx_onto ⟨(i 0).val / 32, by omega⟩ ⟨(i 1).val / 128, by omega⟩
  have e8 : win0_8.index t = win0_7.index t := (idx_facts t).2.2.2.2.2.2.2.2.2.2.2.2.2.1
  have q0 : win0_8.index t (0 : Fin 3) = (i 0).val / 32 := (congrFun e8 0).trans (congrFun ht 0)
  have q1 : win0_8.index t (1 : Fin 3) = (i 1).val / 128 := (congrFun e8 1).trans (congrFun ht 1)
  have q2 : win0_8.index t (2 : Fin 3) = 0 := (congrFun e8 2).trans (congrFun ht 2)
  refine ⟨t, flush0_8 t, ?_⟩
  rw [mem_blk8]
  intro a
  match a with
  | ⟨0, _⟩ => show win0_8.index t (0 : Fin 3) * 32 ≤ (i 0).val ∧ (i 0).val < win0_8.index t (0 : Fin 3) * 32 + 32; omega
  | ⟨1, _⟩ => show win0_8.index t (1 : Fin 3) * 128 ≤ (i 1).val ∧ (i 1).val < win0_8.index t (1 : Fin 3) * 128 + 128; omega
  | ⟨2, _⟩ => show win0_8.index t (2 : Fin 3) * 128 ≤ (i 2).val ∧ (i 2).val < win0_8.index t (2 : Fin 3) * 128 + 128; omega

/-- The source features of the ARGUMENT arrays as launched. -/
def src (c : Dev nD) : S256x512x128.Idx → EReal :=
  Spec.featArr (m ((c : Thread nD τ).loc main_arg0)) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- The destination features of the argument arrays as launched. -/
def dst (c : Dev nD) : S256x512x128.Idx → EReal :=
  Spec.featArr (m ((c : Thread nD τ).loc main_arg1)) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

theorem srcV_eq (c : Dev nD) : srcV m c = src m c := by
  unfold srcV src
  rw [V_main_arg0, V_main_arg1, V_main_arg2, V_main_arg3, V_main_arg5, V_w2]

theorem dstV_eq (c : Dev nD) : dstV m c = dst m c := by
  unfold dstV dst
  rw [V_main_arg0, V_main_arg1, V_main_arg2, V_main_arg3, V_main_arg5, V_w2]

/-- THE FIRST OUTPUT ARRAY after the run is the source feature array of the arguments. -/
theorem final7 (c : Dev nD) : (dats m 0 c).arrAt 7 cfg0.N = src m c :=
  ((dats m 0 c).arrAt_eq_of_cover 7 (srcV m c) (fun t _ => flushed7_eq m c t) cover7).trans (srcV_eq m c)

/-- THE SECOND OUTPUT ARRAY after the run is the destination feature array of the arguments. -/
theorem final8 (c : Dev nD) : (dats m 0 c).arrAt 8 cfg0.N = dst m c :=
  ((dats m 0 c).arrAt_eq_of_cover 8 (dstV m c) (fun t _ => flushed8_eq m c t) cover8).trans (dstV_eq m c)

/-- The kernel's run with both results named: the two feature arrays of the arguments, the arguments unchanged. -/
theorem run : θ_run defs (onTc (τ := τ) (main (F := Ideal))) ⟨m, fun _ => 0, ρ⟩ fun r => ∀ c : Dev nD,
      r.2.mem ((c : Thread nD τ).loc main_v2_0) = src m c
      ∧ r.2.mem ((c : Thread nD τ).loc main_v2_1) = dst m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final7 m c), (h c).2.1.trans (final8 m c), (h c).2.2⟩)
    (Value.run_blocks m ρ)

end Cert.KernelIdeal.Blocks

end
-- ==== Proof.RefFeat.lean ====
/-
  The reference read at one element of each result, on the extended reals.

  The reference counts by adding 0/1 words: it compares the word at (p, l) with every word of a row, widens the one-bit
  results to 32 bits, adds them along the key axis as 32-bit words and converts the total. The total is below 2^31, so
  its signed reading is the number of equal positions. It stacks the two counts, puts zero where the id is 0, runs
  both through the first layer, the rectifier and the second layer with its bias, and adds the two results from zero.
  Since the rectified values are nonnegative, that is the specification's element function.
-/
import proofs.«139890_j1889785610786_2_alg».proof.Proof.RefRead
import proofs.«139890_j1889785610786_2_alg».proof.Proof.LibCount
import proofs.«139890_j1889785610786_2_alg».proof.Proof.Spec
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

namespace Cert.ReferenceIdeal.Feat

open Cert.ReferenceIdeal Cert.ReferenceIdeal.Gen Cert.ReferenceIdeal.ReadP Idealize.ShloMosaic Idealize.ShloMosaic.ValueIdx

/-- Two index functions built from the same coordinates are equal (one tactic per rank). -/
macro "idx_rfl1" : tactic => `(tactic| (refine funext fun a => Fin.ext ?_; match a with | ⟨0, _⟩ => rfl))
macro "idx_rfl2" : tactic => `(tactic| (refine funext fun a => Fin.ext ?_; match a with | ⟨0, _⟩ => rfl | ⟨1, _⟩ => rfl))
macro "idx_rfl3" : tactic => `(tactic| (refine funext fun a => Fin.ext ?_; match a with | ⟨0, _⟩ => rfl | ⟨1, _⟩ => rfl | ⟨2, _⟩ => rfl))
macro "idx_rfl4" : tactic => `(tactic| (refine funext fun a => Fin.ext ?_; match a with | ⟨0, _⟩ => rfl | ⟨1, _⟩ => rfl | ⟨2, _⟩ => rfl | ⟨3, _⟩ => rfl))

/-- A reduce-by-addition of a widened equality mask along the key axis, converted to a float, is the count of the
    key positions that hold the query word. -/
theorem count_of_mask (E : IVec S256x512x512 1) (init : IVec S_ 32) (hinit : ∀ z, init z = 0#32) (q : BitVec 32)
    (row : Fin 512 → BitVec 32) (p : Fin 256) (l : Fin 512) (hE : ∀ k : Fin 512, E (ix3 p l k) = IntOp.cmpi .eq q (row k)) :
    FloatOps.sitofp (F := Ideal) .f32 (Host.reduce IntOp.addi (extui 32 E natLt_1_32) init reducesTo_S256x512x512_S256x512_d2 h_S_ (ix2 p l))
      = Spec.cntRow q row := by
  have hr : S256x512x512.Reduces [2] S256x512 := by decide
  rw [Host.reduce_eq_fold_single IntOp.addi _ _ reducesTo_S256x512x512_S256x512_d2 hr h_S_ (ix2 p l), hinit]
  have hl : ∀ k : Fin 512, hr.lift (ix2 p l) k = ix3 p l k := fun k => by idx_rfl3
  have key : Finset.fold IntOp.addi (0#32) (extui 32 E natLt_1_32 ∘ hr.lift (ix2 p l)) Finset.univ
      = Finset.fold IntOp.addi (0#32) (fun k : Fin 512 => (IntOp.cmpi .eq q (row k)).setWidth 32) (Finset.univ : Finset (Fin 512)) :=
    Finset.fold_congr (fun k _ => by show (E (hr.lift (ix2 p l) k)).setWidth 32 = _; rw [hl k, hE k])
  refine (congrArg (FloatOps.sitofp (F := Ideal) .f32) key).trans ?_
  show (((((Finset.univ : Finset (Fin 512)).fold IntOp.addi 0#32 (fun k => (IntOp.cmpi .eq q (row k)).setWidth 32)).toInt : ℤ) : ℝ) : EReal) = _
  rw [LibCount.fold_bits _ _ (by simp)]
  unfold Spec.cntRow
  simp only [LibCount.cmpi_eq_one_iff]

/-- Source ids counted in the source row. -/
theorem cnt_ss (x0 : IVec S256x512 32) (p : Fin 256) (l : Fin 512) :
    val_main_v7 (F := Ideal) x0 (ix2 p l) = Spec.cntRow (x0 (ix2 p l)) (fun k => x0 (ix2 p k)) := by
  unfold val_main_v7 val_main_v6 val_main_v5
  refine count_of_mask (val_main_v4 (F := Ideal) x0) (val_main_c (F := Ideal)) (fun _ => rfl) _ _ p l (fun k => ?_)
  rw [val_main_v4_apply, val_main_v2_apply, val_main_v0_apply, val_main_v3_apply, val_main_v1_apply]
  have e1 : idx_main_v0 (idx_main_v2 (ix3 p l k)) = ix2 p l := by idx_rfl2
  have e2 : idx_main_v1 (idx_main_v3 (ix3 p l k)) = ix2 p k := by idx_rfl2
  rw [e1, e2]

/-- Source ids counted in the destination row. -/
theorem cnt_sd (x0 x1 : IVec S256x512 32) (p : Fin 256) (l : Fin 512) :
    val_main_v15 (F := Ideal) x0 x1 (ix2 p l) = Spec.cntRow (x0 (ix2 p l)) (fun k => x1 (ix2 p k)) := by
  unfold val_main_v15 val_main_v14 val_main_v13
  refine count_of_mask (val_main_v12 (F := Ideal) x0 x1) (val_main_c_0 (F := Ideal)) (fun _ => rfl) _ _ p l (fun k => ?_)
  rw [val_main_v12_apply, val_main_v10_apply, val_main_v8_apply, val_main_v11_apply, val_main_v9_apply]
  have e1 : idx_main_v8 (idx_main_v10 (ix3 p l k)) = ix2 p l := by idx_rfl2
  have e2 : idx_main_v9 (idx_main_v11 (ix3 p l k)) = ix2 p k := by idx_rfl2
  rw [e1, e2]

/-- Destination ids counted in the source row. -/
theorem cnt_ds (x0 x1 : IVec S256x512 32) (p : Fin 256) (l : Fin 512) :
    val_main_v26 (F := Ideal) x0 x1 (ix2 p l) = Spec.cntRow (x1 (ix2 p l)) (fun k => x0 (ix2 p k)) := by
  unfold val_main_v26 val_main_v25 val_main_v24
  refine count_of_mask (val_main_v23 (F := Ideal) x0 x1) (val_main_c_1 (F := Ideal)) (fun _ => rfl) _ _ p l (fun k => ?_)
  rw [val_main_v23_apply, val_main_v21_apply, val_main_v19_apply, val_main_v22_apply, val_main_v20_apply]
  have e1 : idx_main_v19 (idx_main_v21 (ix3 p l k)) = ix2 p l := by idx_rfl2
  have e2 : idx_main_v20 (idx_main_v22 (ix3 p l k)) = ix2 p k := by idx_rfl2
  rw [e1, e2]

/-- Destination ids counted in the destination row. -/
theorem cnt_dd (x1 : IVec S256x512 32) (p : Fin 256) (l : Fin 512) :
    val_main_v34 (F := Ideal) x1 (ix2 p l) = Spec.cntRow (x1 (ix2 p l)) (fun k => x1 (ix2 p k)) := by
  unfold val_main_v34 val_main_v33 val_main_v32
  refine count_of_mask (val_main_v31 (F := Ideal) x1) (val_main_c_2 (F := Ideal)) (fun _ => rfl) _ _ p l (fun k => ?_)
  rw [val_main_v31_apply, val_main_v29_apply, val_main_v27_apply, val_main_v30_apply, val_main_v28_apply]
  have e1 : idx_main_v27 (idx_main_v29 (ix3 p l k)) = ix2 p l := by idx_rfl2
  have e2 : idx_main_v28 (idx_main_v30 (ix3 p l k)) = ix2 p k := by idx_rfl2
  rw [e1, e2]

/-- A select on "the id is 0" between zero and a value. -/
theorem select_pad (q : BitVec 32) (a b : EReal) : Scalar.select (IntOp.cmpi .eq q 0#32) a b = if q = 0#32 then a else b := by
  by_cases h : q = 0#32
  · rw [if_pos h, (LibCount.cmpi_eq_one_iff q 0#32).mpr h]; exact select_one a b
  · rw [if_neg h, eq_zero_of_ne_one (fun h1 => h ((LibCount.cmpi_eq_one_iff q 0#32).mp h1))]; exact select_zero a b

/-- The word of `+0.0` denotes zero. -/
theorem zero_f32 : (FloatOps.ofBits (F := Ideal) .f32 0x00000000#32) = (0 : EReal) := Ideal.ofBits_zero_f32

/-- The masked appearance of the source ids in the source row: the first stacked channel, zero at the padding id. -/
theorem app_s0 (x0 x1 : IVec S256x512 32) (p : Fin 256) (l : Fin 512) :
    val_main_v41 (F := Ideal) x0 x1 (ix3 p l 0) = Spec.appRow (x0 (ix2 p l)) (fun k => x0 (ix2 p k)) := by
  rw [val_main_v41_apply, val_main_call0_v1_apply, val_main_v40_apply, val_main_v38_apply, val_main_v39_apply, val_main_c_3_apply,
    val_main_call0_v2_apply, val_main_call0_v0_apply, val_main_cst_apply, zero_f32]
  have e1 : idx_main_v38 (idx_main_call0_v1 (ix3 p l 0)) = ix2 p l := by idx_rfl2
  rw [e1, select_pad]
  unfold Spec.appRow
  refine if_congr Iff.rfl rfl ?_
  unfold val_main_v18
  refine (concatenate_pair_apply_left (t := S256x512x2) (s₁ := S256x512x1) (s₂ := S256x512x1) (2 : Fin 3) (val_main_v16 (F := Ideal) x0) (val_main_v17 (F := Ideal) x0 x1)
    concatenates_S256x512x1_S256x512x1_S256x512x2_d2 (ix3 p l (0 : Fin 2)) rfl (ix3 p l (0 : Fin 1))
    (fun b => by
      match b with
      | ⟨0, _⟩ => rfl
      | ⟨1, _⟩ => rfl
      | ⟨2, _⟩ => rfl)).trans ?_
  rw [val_main_v16_apply]
  have e2 : idx_main_v16 (ix3 p l 0) = ix2 p l := by idx_rfl2
  rw [e2, cnt_ss]

/-- The masked appearance of the source ids in the destination row: the second stacked channel. -/
theorem app_s1 (x0 x1 : IVec S256x512 32) (p : Fin 256) (l : Fin 512) :
    val_main_v41 (F := Ideal) x0 x1 (ix3 p l 1) = Spec.appRow (x0 (ix2 p l)) (fun k => x1 (ix2 p k)) := by
  rw [val_main_v41_apply, val_main_call0_v1_apply, val_main_v40_apply, val_main_v38_apply, val_main_v39_apply, val_main_c_3_apply,
    val_main_call0_v2_apply, val_main_call0_v0_apply, val_main_cst_apply, zero_f32]
  have e1 : idx_main_v38 (idx_main_call0_v1 (ix3 p l 1)) = ix2 p l := by idx_rfl2
  rw [e1, select_pad]
  unfold Spec.appRow
  refine if_congr Iff.rfl rfl ?_
  unfold val_main_v18
  refine (concatenate_pair_apply_right (t := S256x512x2) (s₁ := S256x512x1) (s₂ := S256x512x1) (2 : Fin 3) (val_main_v16 (F := Ideal) x0) (val_main_v17 (F := Ideal) x0 x1)
    concatenates_S256x512x1_S256x512x1_S256x512x2_d2 (ix3 p l (1 : Fin 2)) rfl rfl (ix3 p l (0 : Fin 1))
    (fun b hb => by
      match b with
      | ⟨0, _⟩ => rfl
      | ⟨1, _⟩ => rfl
      | ⟨2, _⟩ => exact absurd rfl hb) rfl).trans ?_
  rw [val_main_v17_apply]
  have e2 : idx_main_v17 (ix3 p l 0) = ix2 p l := by idx_rfl2
  rw [e2, cnt_sd]

/-- One rectified hidden channel of a stacked appearance of the source ids. -/
theorem hid_s (x0 x1 : IVec S256x512 32) (x2 : FVec Ideal S1x128 .f32) (x3 : FVec Ideal S128 .f32)
    (p : Fin 256) (l : Fin 512) (k : Fin 2) (d : Fin 128) :
    val_main_v55 (F := Ideal) x0 x1 x2 x3 (ix4 p l k d)
      = Spec.hid (val_main_v41 (F := Ideal) x0 x1 (ix3 p l k)) (x2 (ix2 0 d)) (x3 (ix1 d)) := by
  rw [val_main_v55_apply, val_main_v54_apply, val_main_v51_apply, val_main_v49_apply, val_main_v46_apply, val_main_v50_apply,
    val_main_v48_apply, val_main_v47_apply, val_main_v53_apply, val_main_v52_apply, val_main_call2_v0_apply, val_main_call2_cst_apply, zero_f32]
  have e1 : idx_main_v46 (idx_main_v49 (ix4 p l k d)) = ix3 p l k := by idx_rfl3
  have e2 : idx_main_v47 (idx_main_v48 (idx_main_v50 (ix4 p l k d))) = ix2 0 d := by
    refine funext fun a => Fin.ext ?_
    match a with
    | ⟨0, _⟩ => rfl
    | ⟨1, _⟩ => show d.val % 128 = d.val; exact Nat.mod_eq_of_lt d.isLt
  have e3 : idx_main_v52 (idx_main_v53 (ix4 p l k d)) = ix1 d := by idx_rfl1
  rw [e1, e2, e3]
  rfl

/-- The second layer with its bias on one stacked channel of the source ids. -/
theorem out_s (x0 x1 : IVec S256x512 32) (x2 : FVec Ideal S1x128 .f32) (x3 : FVec Ideal S128 .f32)
    (x4 : FVec Ideal S128x128 .f32) (x5 : FVec Ideal S128 .f32) (p : Fin 256) (l : Fin 512) (k : Fin 2) (e : Fin 128) :
    val_main_v59 (F := Ideal) x0 x1 x2 x3 x4 x5 (ix4 p l k e)
      = (∑ d : Fin 128, Spec.hid (val_main_v41 (F := Ideal) x0 x1 (ix3 p l k)) (x2 (ix2 0 d)) (x3 (ix1 d)) * x4 (ix2 d e)) + x5 (ix1 e) := by
  rw [val_main_v59_apply, val_main_v56_apply, val_main_v58_apply, val_main_v57_apply]
  have e1 : idx_main_v57 (idx_main_v58 (ix4 p l k e)) = ix1 e := by idx_rfl1
  have e2 : ∀ d : Fin 128, lidx_main_v56 (ix4 p l k e) d = ix4 p l k d := fun d => by idx_rfl4
  have e3 : ∀ d : Fin 128, ridx_main_v56 (ix4 p l k e) d = ix2 d e := fun d => by idx_rfl2
  simp only [e1, e2, e3, hid_s]
  rfl

/-- THE FIRST RESULT of the reference is the source feature array of the arguments. -/
theorem ref_src (x0 x1 : IVec S256x512 32) (x2 : FVec Ideal S1x128 .f32) (x3 : FVec Ideal S128 .f32)
    (x4 : FVec Ideal S128x128 .f32) (x5 : FVec Ideal S128 .f32) :
    val_main_v60 (F := Ideal) x0 x1 x2 x3 x4 x5 = Spec.featArr x0 x0 x1 x2 x3 x4 x5 := by
  funext i
  obtain ⟨p, l, e, rfl⟩ : ∃ (p : Fin 256) (l : Fin 512) (e : Fin 128), i = ix3 p l e := ⟨i 0, i 1, i 2, eq_ix3 i⟩
  rw [val_main_v60_apply, Fin.sum_univ_two, val_main_cst_6_apply, zero_f32, zero_add]
  have e0 : idx_main_v60 (ix3 p l e) 0 = ix4 p l 0 e := by idx_rfl4
  have e1 : idx_main_v60 (ix3 p l e) 1 = ix4 p l 1 e := by idx_rfl4
  rw [e0, e1, out_s, out_s, app_s0, app_s1]
  exact (Spec.layer_of_sum
    (fun d => Spec.hid (Spec.appRow (x0 (ix2 p l)) (fun k => x0 (ix2 p k))) (x2 (ix2 0 d)) (x3 (ix1 d)))
    (fun d => Spec.hid (Spec.appRow (x0 (ix2 p l)) (fun k => x1 (ix2 p k))) (x2 (ix2 0 d)) (x3 (ix1 d)))
    (fun d => x4 (ix2 d e)) (x5 (ix1 e)) (fun d => Spec.hid_nonneg _ _ _) (fun d => Spec.hid_nonneg _ _ _)).symm

/-- The masked appearance of the destination ids in the source row: the first stacked channel, zero at the padding id. -/
theorem app_d0 (x0 x1 : IVec S256x512 32) (p : Fin 256) (l : Fin 512) :
    val_main_v45 (F := Ideal) x0 x1 (ix3 p l 0) = Spec.appRow (x1 (ix2 p l)) (fun k => x0 (ix2 p k)) := by
  rw [val_main_v45_apply, val_main_call1_v1_apply, val_main_v44_apply, val_main_v42_apply, val_main_v43_apply, val_main_c_4_apply,
    val_main_call1_v2_apply, val_main_call1_v0_apply, val_main_cst_5_apply, zero_f32]
  have e1 : idx_main_v42 (idx_main_call1_v1 (ix3 p l 0)) = ix2 p l := by idx_rfl2
  rw [e1, select_pad]
  unfold Spec.appRow
  refine if_congr Iff.rfl rfl ?_
  unfold val_main_v37
  refine (concatenate_pair_apply_left (t := S256x512x2) (s₁ := S256x512x1) (s₂ := S256x512x1) (2 : Fin 3) (val_main_v35 (F := Ideal) x0 x1) (val_main_v36 (F := Ideal) x1)
    concatenates_S256x512x1_S256x512x1_S256x512x2_d2 (ix3 p l (0 : Fin 2)) rfl (ix3 p l (0 : Fin 1))
    (fun b => by
      match b with
      | ⟨0, _⟩ => rfl
      | ⟨1, _⟩ => rfl
      | ⟨2, _⟩ => rfl)).trans ?_
  rw [val_main_v35_apply]
  have e2 : idx_main_v35 (ix3 p l 0) = ix2 p l := by idx_rfl2
  rw [e2, cnt_ds]

/-- The masked appearance of the destination ids in the destination row: the second stacked channel. -/
theorem app_d1 (x0 x1 : IVec S256x512 32) (p : Fin 256) (l : Fin 512) :
    val_main_v45 (F := Ideal) x0 x1 (ix3 p l 1) = Spec.appRow (x1 (ix2 p l)) (fun k => x1 (ix2 p k)) := by
  rw [val_main_v45_apply, val_main_call1_v1_apply, val_main_v44_apply, val_main_v42_apply, val_main_v43_apply, val_main_c_4_apply,
    val_main_call1_v2_apply, val_main_call1_v0_apply, val_main_cst_5_apply, zero_f32]
  have e1 : idx_main_v42 (idx_main_call1_v1 (ix3 p l 1)) = ix2 p l := by idx_rfl2
  rw [e1, select_pad]
  unfold Spec.appRow
  refine if_congr Iff.rfl rfl ?_
  unfold val_main_v37
  refine (concatenate_pair_apply_right (t := S256x512x2) (s₁ := S256x512x1) (s₂ := S256x512x1) (2 : Fin 3) (val_main_v35 (F := Ideal) x0 x1) (val_main_v36 (F := Ideal) x1)
    concatenates_S256x512x1_S256x512x1_S256x512x2_d2 (ix3 p l (1 : Fin 2)) rfl rfl (ix3 p l (0 : Fin 1))
    (fun b hb => by
      match b with
      | ⟨0, _⟩ => rfl
      | ⟨1, _⟩ => rfl
      | ⟨2, _⟩ => exact absurd rfl hb) rfl).trans ?_
  rw [val_main_v36_apply]
  have e2 : idx_main_v36 (ix3 p l 0) = ix2 p l := by idx_rfl2
  rw [e2, cnt_dd]

/-- One rectified hidden channel of a stacked appearance of the destination ids. -/
theorem hid_d (x0 x1 : IVec S256x512 32) (x2 : FVec Ideal S1x128 .f32) (x3 : FVec Ideal S128 .f32)
    (p : Fin 256) (l : Fin 512) (k : Fin 2) (d : Fin 128) :
    val_main_v70 (F := Ideal) x0 x1 x2 x3 (ix4 p l k d)
      = Spec.hid (val_main_v45 (F := Ideal) x0 x1 (ix3 p l k)) (x2 (ix2 0 d)) (x3 (ix1 d)) := by
  rw [val_main_v70_apply, val_main_v69_apply, val_main_v66_apply, val_main_v64_apply, val_main_v61_apply, val_main_v65_apply,
    val_main_v63_apply, val_main_v62_apply, val_main_v68_apply, val_main_v67_apply, val_main_call3_v0_apply, val_main_call3_cst_apply, zero_f32]
  have e1 : idx_main_v61 (idx_main_v64 (ix4 p l k d)) = ix3 p l k := by idx_rfl3
  have e2 : idx_main_v62 (idx_main_v63 (idx_main_v65 (ix4 p l k d))) = ix2 0 d := by
    refine funext fun a => Fin.ext ?_
    match a with
    | ⟨0, _⟩ => rfl
    | ⟨1, _⟩ => show d.val % 128 = d.val; exact Nat.mod_eq_of_lt d.isLt
  have e3 : idx_main_v67 (idx_main_v68 (ix4 p l k d)) = ix1 d := by idx_rfl1
  rw [e1, e2, e3]
  rfl

/-- The second layer with its bias on one stacked channel of the destination ids. -/
theorem out_d (x0 x1 : IVec S256x512 32) (x2 : FVec Ideal S1x128 .f32) (x3 : FVec Ideal S128 .f32)
    (x4 : FVec Ideal S128x128 .f32) (x5 : FVec Ideal S128 .f32) (p : Fin 256) (l : Fin 512) (k : Fin 2) (e : Fin 128) :
    val_main_v74 (F := Ideal) x0 x1 x2 x3 x4 x5 (ix4 p l k e)
      = (∑ d : Fin 128, Spec.hid (val_main_v45 (F := Ideal) x0 x1 (ix3 p l k)) (x2 (ix2 0 d)) (x3 (ix1 d)) * x4 (ix2 d e)) + x5 (ix1 e) := by
  rw [val_main_v74_apply, val_main_v71_apply, val_main_v73_apply, val_main_v72_apply]
  have e1 : idx_main_v72 (idx_main_v73 (ix4 p l k e)) = ix1 e := by idx_rfl1
  have e2 : ∀ d : Fin 128, lidx_main_v71 (ix4 p l k e) d = ix4 p l k d := fun d => by idx_rfl4
  have e3 : ∀ d : Fin 128, ridx_main_v71 (ix4 p l k e) d = ix2 d e := fun d => by idx_rfl2
  simp only [e1, e2, e3, hid_d]
  rfl

/-- THE SECOND RESULT of the reference is the destination feature array of the arguments. -/
theorem ref_dst (x0 x1 : IVec S256x512 32) (x2 : FVec Ideal S1x128 .f32) (x3 : FVec Ideal S128 .f32)
    (x4 : FVec Ideal S128x128 .f32) (x5 : FVec Ideal S128 .f32) :
    val_main_v75 (F := Ideal) x0 x1 x2 x3 x4 x5 = Spec.featArr x1 x0 x1 x2 x3 x4 x5 := by
  funext i
  obtain ⟨p, l, e, rfl⟩ : ∃ (p : Fin 256) (l : Fin 512) (e : Fin 128), i = ix3 p l e := ⟨i 0, i 1, i 2, eq_ix3 i⟩
  rw [val_main_v75_apply, Fin.sum_univ_two, val_main_cst_7_apply, zero_f32, zero_add]
  have e0 : idx_main_v75 (ix3 p l e) 0 = ix4 p l 0 e := by idx_rfl4
  have e1 : idx_main_v75 (ix3 p l e) 1 = ix4 p l 1 e := by idx_rfl4
  rw [e0, e1, out_d, out_d, app_d0, app_d1]
  exact (Spec.layer_of_sum
    (fun d => Spec.hid (Spec.appRow (x1 (ix2 p l)) (fun k => x0 (ix2 p k))) (x2 (ix2 0 d)) (x3 (ix1 d)))
    (fun d => Spec.hid (Spec.appRow (x1 (ix2 p l)) (fun k => x1 (ix2 p k))) (x2 (ix2 0 d)) (x3 (ix1 d)))
    (fun d => x4 (ix2 d e)) (x5 (ix1 e)) (fun d => Spec.hid_nonneg _ _ _) (fun d => Spec.hid_nonneg _ _ _)).symm

end Cert.ReferenceIdeal.Feat

end
-- ==== Proof.lean ====
/-
  The certificate of a fused co-occurrence feature kernel against its jnp reference, on the extended reals.

  Both programs take two arrays of node ids (256 batch rows of 512 positions) and the weights of a two-layer encoder,
  and return two feature arrays [256, 512, 128]. For each id, its appearance counts in the source row and in the
  destination row of its batch row (zero for the padding id 0) go through `max (x * W1 + b1) 0`, then through `W2` with
  bias `b2`, and the two results are added.

  The kernel counts with a matrix product of the 0/1 equality matrix against an all-ones matrix, masks by a 0/1 factor,
  adds the two rectified vectors before ONE second-layer product and adds the bias twice. The reference adds the 0/1
  words as integers, converts the total, selects zero at the padding id, applies the second layer to each rectified
  vector and adds the results. Both are the element function `Spec.featElt`:
  the kernel's value block by block (KPiece, KPay, KBlocks), the reference's stage by stage (RefFeat), and the two forms
  of the second layer agree because rectified values are nonnegative, where the extended reals distribute
  (`Spec.layer_of_sum`). No finiteness of the float inputs is used. The ideal pass rewrote nothing, so the
  idealization claim is trivial; the frames of the two kernel programs are the generated ones, and the reference's frame
  is its run with the results dropped.
-/
import proofs.«139890_j1889785610786_2_alg».proof.Defs
import proofs.«139890_j1889785610786_2_alg».proof.Proof.Gen.Kernel
import proofs.«139890_j1889785610786_2_alg».proof.Proof.Gen.Kernel.Skeleton
import proofs.«139890_j1889785610786_2_alg».proof.Proof.Gen.Kernel.Launch
import proofs.«139890_j1889785610786_2_alg».proof.Proof.Gen.Kernel.Points
import proofs.«139890_j1889785610786_2_alg».proof.Proof.Gen.Kernel.Frame
import proofs.«139890_j1889785610786_2_alg».proof.Proof.Gen.KernelIdeal
import proofs.«139890_j1889785610786_2_alg».proof.Proof.Gen.KernelIdeal.Skeleton
import proofs.«139890_j1889785610786_2_alg».proof.Proof.Gen.KernelIdeal.Launch
import proofs.«139890_j1889785610786_2_alg».proof.Proof.Gen.KernelIdeal.Points
import proofs.«139890_j1889785610786_2_alg».proof.Proof.Gen.KernelIdeal.Frame
import proofs.«139890_j1889785610786_2_alg».proof.Proof.Gen.ReferenceIdeal
import proofs.«139890_j1889785610786_2_alg».proof.Proof.Gen.Pre_finite_inputs
import proofs.«139890_j1889785610786_2_alg».proof.Proof.Gen.KernelIdeal.Value
import proofs.«139890_j1889785610786_2_alg».proof.Proof.KBlocks
import proofs.«139890_j1889785610786_2_alg».proof.Proof.RefRead
import proofs.«139890_j1889785610786_2_alg».proof.Proof.RefRun
import proofs.«139890_j1889785610786_2_alg».proof.Proof.RefFeat
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both programs end with the two feature arrays of the arguments: the kernel by its blocks, the reference by its
    stages, from memories that agree on the arguments. -/
theorem algebraic : Cert.algebraic_KernelIdeal_ReferenceIdeal := by
  intro m ρ m' ρ' _ hagree
  refine ⟨fun c => Cert.KernelIdeal.Blocks.src m c, fun c => Cert.KernelIdeal.Blocks.dst m c,
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · refine (Cert.ReferenceIdeal.ReadP.val_main_v60_eq (F := Ideal) _ _ _ _ _ _).trans ((Cert.ReferenceIdeal.Feat.ref_src _ _ _ _ _ _).trans ?_)
    unfold Cert.KernelIdeal.Blocks.src
    rw [(hagree c).1, (hagree c).2.1, (hagree c).2.2.1, (hagree c).2.2.2.1, (hagree c).2.2.2.2.1, (hagree c).2.2.2.2.2]
  · refine (Cert.ReferenceIdeal.ReadP.val_main_v75_eq (F := Ideal) _ _ _ _ _ _).trans ((Cert.ReferenceIdeal.Feat.ref_dst _ _ _ _ _ _).trans ?_)
    unfold Cert.KernelIdeal.Blocks.dst
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
